-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x200000 : Shape := ⟨2, ![2, 200000]⟩
abbrev S_ : Shape := ⟨0, ![]⟩
abbrev S1x800000 : Shape := ⟨2, ![1, 800000]⟩
abbrev S800000 : Shape := ⟨1, ![800000]⟩
abbrev S1x200000 : Shape := ⟨2, ![1, 200000]⟩
abbrev S200000 : Shape := ⟨1, ![200000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  reducesTo_S200000_S_d0 : S200000.ReducesTo [0] S_
  slices_S2x200000_S1x200000_1_0 : S2x200000.Slices ![1, 0] S1x200000

variable [Facts]

def fn_part3 {F : FTy → Type} [FloatOps F] (main_arg8 : IVec S2x200000 32) (main_v51 : IVec S_ 1) : IVec S_ 1 :=
  let main_v52 : IVec S1x200000 32 := (extractStridedSlice S1x200000 ![0, 0] · slices_S2x200000_S1x200000_0_0) main_arg8
  let main_v53 : IVec S200000 32 := shapeCast S200000 main_v52 shapeCasts_S1x200000_S200000
  let main_c_18 : IVec S_ 32 := constantI S_ 32 50000#32
  let main_v54 : IVec S200000 32 := broadcastInDim S200000 ![] bcast_S_S200000 main_c_18
  let main_v55 : IVec S200000 1 := cmpi .slt main_v53 main_v54
  let main_c_19 : IVec S_ 1 := constantI S_ 1 1#1
  let main_v56 : IVec S_ 1 := (fun x v => Host.reduce IntOp.andi x v reducesTo_S200000_S_d0 h_S_) main_v55 main_c_19
  let main_v57 : IVec S_ 1 := andi main_v51 main_v56
  let main_v58 : IVec S1x200000 32 := (extractStridedSlice S1x200000 ![1, 0] · slices_S2x200000_S1x200000_1_0) main_arg8
  let main_v59 : IVec S200000 32 := shapeCast S200000 main_v58 shapeCasts_S1x200000_S200000
  let main_c_20 : IVec S_ 32 := constantI S_ 32 4294917296#32
  let main_v60 : IVec S200000 32 := broadcastInDim S200000 ![] bcast_S_S200000 main_c_20
  let main_v61 : IVec S200000 1 := cmpi .sge main_v59 main_v60
  let main_c_21 : IVec S_ 1 := constantI S_ 1 1#1
  let main_v62 : IVec S_ 1 := (fun x v => Host.reduce IntOp.andi x v reducesTo_S200000_S_d0 h_S_) main_v61 main_c_21
  let main_v63 : IVec S_ 1 := andi main_v57 main_v62
  let main_v64 : IVec S1x200000 32 := (extractStridedSlice S1x200000 ![1, 0] · slices_S2x200000_S1x200000_1_0) main_arg8
  let main_v65 : IVec S200000 32 := shapeCast S200000 main_v64 shapeCasts_S1x200000_S200000
  let main_c_22 : IVec S_ 32 := constantI S_ 32 50000#32
  let main_v66 : IVec S200000 32 := broadcastInDim S200000 ![] bcast_S_S200000 main_c_22
  let main_v67 : IVec S200000 1 := cmpi .slt main_v65 main_v66
  let main_c_23 : IVec S_ 1 := constantI S_ 1 1#1
  let main_v68 : IVec S_ 1 := (fun x v => Host.reduce IntOp.andi x v reducesTo_S200000_S_d0 h_S_) main_v67 main_c_23
  let main_v69 : IVec S_ 1 := andi main_v63 main_v68
  main_v69

def fn_part2 {F : FTy → Type} [FloatOps F] (main_arg7 : IVec S2x800000 32) (main_arg8 : IVec S2x200000 32) (main_v33 : IVec S_ 1) : IVec S_ 1 :=
  let main_v34 : IVec S1x800000 32 := (extractStridedSlice S1x800000 ![0, 0] · slices_S2x800000_S1x800000_0_0) main_arg7
  let main_v35 : IVec S800000 32 := shapeCast S800000 main_v34 shapeCasts_S1x800000_S800000
  let main_c_12 : IVec S_ 32 := constantI S_ 32 4294917296#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  let main_v40 : IVec S1x800000 32 := (extractStridedSlice S1x800000 ![0, 0] · slices_S2x800000_S1x800000_0_0) main_arg7
  let main_v41 : IVec S800000 32 := shapeCast S800000 main_v40 shapeCasts_S1x800000_S800000
  let main_c_14 : IVec S_ 32 := constantI S_ 32 50000#32
  let main_v42 : IVec S800000 32 := broadcastInDim S800000 ![] bcast_S_S800000 main_c_14
  let main_v43 : IVec S800000 1 := cmpi .slt main_v41 main_v42
  let main_c_15 : IVec S_ 1 := constantI S_ 1 1#1
  let main_v44 : IVec S_ 1 := (fun x v => Host.reduce IntOp.andi x v reducesTo_S800000_S_d0 h_S_) main_v43 main_c_15
  let main_v45 : IVec S_ 1 := andi main_v39 main_v44
  let main_v46 : IVec S1x200000 32 := (extractStridedSlice S1x200000 ![0, 0] · slices_S2x200000_S1x200000_0_0) main_arg8
  let main_v47 : IVec S200000 32 := shapeCast S200000 main_v46 shapeCasts_S1x200000_S200000
  let main_c_16 : IVec S_ 32 := constantI S_ 32 4294917296#32
  let main_v48 : IVec S200000 32 := broadcastInDim S200000 ![] bcast_S_S200000 main_c_16
  let main_v49 : IVec S200000 1 := cmpi .sge main_v47 main_v48
  let main_c_17 : IVec S_ 1 := constantI S_ 1 1#1
  let main_v50 : IVec S_ 1 := (fun x v => Host.reduce IntOp.andi x v reducesTo_S200000_S_d0 h_S_) main_v49 main_c_17
  let main_v51 : IVec S_ 1 := andi main_v45 main_v50
  fn_part3 (F := F) main_arg8 main_v51

def fn_part1 {F : FTy → Type} [FloatOps F] (main_arg4 : FVec F S128x128 .f32) (main_arg5 : FVec F S128 .f32) (main_arg6 : FVec F S128x128 .f32) (main_arg7 : IVec S2x800000 32) (main_arg8 : IVec S2x200000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S128x128 .f32) (main_arg4 : FVec F S128x128 .f32) (main_arg5 : FVec F S128 .f32) (main_arg6 : FVec F S128x128 .f32) (main_arg7 : IVec S2x800000 32) (main_arg8 : IVec S2x200000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S5000x1 : Shape := ⟨2, ![5000, 1]⟩
abbrev S5000 : Shape := ⟨1, ![5000]⟩

abbrev nBuf : Space → Nat
  | .hbm => 145
  | .vmem => 24
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128x128, .f32⟩
  | 5 => ⟨S128, .f32⟩
  | 6 => ⟨S128x128, .f32⟩
  | 7 => ⟨S2x800000, .i32⟩
  | 8 => ⟨S2x200000, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x128, .f32⟩
  | 34 => ⟨S800000x128, .i1⟩
  | 35 => ⟨S_, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S1x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S1, .i32⟩
  | 63 => ⟨S_, .i32⟩
  | 64 => ⟨S800000x1, .i32⟩
  | 65 => ⟨S800000x1, .i1⟩
  | 66 => ⟨S1x1, .i32⟩
  | 67 => ⟨S800000x1, .i32⟩
  | 68 => ⟨S800000x1, .i1⟩
  | 69 => ⟨S800000x1, .i1⟩
  | 70 => ⟨S_, .i1⟩
  | 71 => ⟨S800000, .i1⟩
  | 72 => ⟨S800000x128, .f32⟩
  | 73 => ⟨S800000x128, .i1⟩
  | 74 => ⟨S_, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S_, .f32⟩
  | 82 => ⟨S50000, .f32⟩
  | 83 => ⟨S800000x1, .i32⟩
  | 84 => ⟨S50000, .f32⟩
  | 85 => ⟨S_, .f32⟩
  | 86 => ⟨S50000, .f32⟩
  | 87 => ⟨S50000, .f32⟩
  | 88 => ⟨S50000x1, .f32⟩
  | 89 => ⟨S50000x128, .f32⟩
  | 90 => ⟨S50000x128, .f32⟩
  | 91 => ⟨S1x128, .f32⟩
  | 92 => ⟨S50000x128, .f32⟩
  | 93 => ⟨S1x200000, .i32⟩
  | 94 => ⟨S200000, .i32⟩
  | 95 => ⟨S1x200000, .i32⟩
  | 96 => ⟨S200000, .i32⟩
  | 97 => ⟨S_, .i32⟩
  | 98 => ⟨S200000, .i32⟩
  | 99 => ⟨S200000, .i1⟩
  | 100 => ⟨S_, .i32⟩
  | 101 => ⟨S200000, .i32⟩
  | 102 => ⟨S200000, .i32⟩
  | 103 => ⟨S200000, .i32⟩
  | 104 => ⟨S200000x1, .i32⟩
  | 105 => ⟨S1, .i32⟩
  | 106 => ⟨S_, .i32⟩
  | 107 => ⟨S200000x1, .i32⟩
  | 108 => ⟨S200000x1, .i1⟩
  | 109 => ⟨S1x1, .i32⟩
  | 110 => ⟨S200000x1, .i32⟩
  | 111 => ⟨S200000x1, .i1⟩
  | 112 => ⟨S200000x1, .i1⟩
  | 113 => ⟨S_, .i1⟩
  | 114 => ⟨S200000, .i1⟩
  | 115 => ⟨S200000x128, .f32⟩
  | 116 => ⟨S200000x128, .i1⟩
  | 117 => ⟨S_, .f32⟩
  | 118 => ⟨S200000x128, .f32⟩
  | 119 => ⟨S200000x128, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S50000x128, .f32⟩

abbrev hbmTy0_1 (i : Nat) : BufTy := match i % 128 with
  | 0 => ⟨S1, .i32⟩
  | 1 => ⟨S_, .i32⟩
  | 2 => ⟨S200000x1, .i32⟩
  | 3 => ⟨S200000x1, .i1⟩
  | 4 => ⟨S1x1, .i32⟩
  | 5 => ⟨S200000x1, .i32⟩
  | 6 => ⟨S200000x1, .i1⟩
  | 7 => ⟨S200000x1, .i1⟩
  | 8 => ⟨S_, .i1⟩
  | 9 => ⟨S200000, .i1⟩
  | 10 => ⟨S200000x128, .f32⟩
  | 11 => ⟨S200000x128, .i1⟩
  | 12 => ⟨S_, .f32⟩
  | 13 => ⟨S200000x128, .f32⟩
  | 14 => ⟨S200000x128, .f32⟩
  | 15 => ⟨S200000x1, .f32⟩
  | 16 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v19 : Ref sig .tc := ⟨.hbm, 76, rfl⟩
abbrev main_cst_3 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_cst_4 : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_cst_5 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v37 : Ref sig .tc := ⟨.hbm, 119, rfl⟩
abbrev main_call3_c : Ref sig .tc := ⟨.hbm, 120, rfl⟩
abbrev main_call3_v0 : Ref sig .tc := ⟨.hbm, 121, rfl⟩
abbrev main_call3_v1 : Ref sig .tc := ⟨.hbm, 122, rfl⟩
abbrev main_call3_c_0 : Ref sig .tc := ⟨.hbm, 123, rfl⟩
abbrev main_call3_v2 : Ref sig .tc := ⟨.hbm, 124, rfl⟩
abbrev main_call3_v3 : Ref sig .tc := ⟨.hbm, 125, rfl⟩
abbrev main_call3_v4 : Ref sig .tc := ⟨.hbm, 126, rfl⟩
abbrev main_call3_v5 : Ref sig .tc := ⟨.hbm, 127, rfl⟩
abbrev main_call3_c_1 : Ref sig .tc := ⟨.hbm, 128, rfl⟩
abbrev main_call3_c_2 : Ref sig .tc := ⟨.hbm, 129, rfl⟩
abbrev main_call3_v6 : Ref sig .tc := ⟨.hbm, 130, rfl⟩
abbrev main_call3_v7 : Ref sig .tc := ⟨.hbm, 131, rfl⟩
abbrev main_call3_v8 : Ref sig .tc := ⟨.hbm, 132, rfl⟩
abbrev main_call3_v9 : Ref sig .tc := ⟨.hbm, 133, rfl⟩
abbrev main_call3_v10 : Ref sig .tc := ⟨.hbm, 134, rfl⟩
abbrev main_call3_v11 : Ref sig .tc := ⟨.hbm, 135, rfl⟩
abbrev main_call3_c_3 : Ref sig .tc := ⟨.hbm, 136, rfl⟩
abbrev main_call3_v12 : Ref sig .tc := ⟨.hbm, 137, rfl⟩
abbrev main_call3_v13 : Ref sig .tc := ⟨.hbm, 138, rfl⟩
abbrev main_call3_v14 : Ref sig .tc := ⟨.hbm, 139, rfl⟩
abbrev main_call3_cst : Ref sig .tc := ⟨.hbm, 140, rfl⟩
abbrev main_call3_v15 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1x1_S200000x1_0_1 : S1x1.BroadcastsInDim S200000x1 (![0, 1] : Fin 2 → Fin S200000x1.rank)
  reducesTo_S200000x1_S200000_d1 : S200000x1.ReducesTo [1] S200000
  bcast_S200000_S200000x128_0 : S200000.BroadcastsInDim S200000x128 (![0] : Fin 1 → Fin S200000x128.rank)
  bcast_S_S200000x128 : S_.BroadcastsInDim S200000x128 (![] : Fin 0 → Fin S200000x128.rank)
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S200000x1_S200000x128_1_0_n_n_0_1_1128_wf : GatherDims.WF S50000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S200000x1.size a
  hwx2_2 : ∀ i : grid2.Coords, EltTy.bits .f32 = 32 ∨ (Rect.block (s := S200000x1) S5000x1.size (cc2_transform_2 i) (hinb2_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x200000 : Shape := ⟨2, ![2, 200000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S2x800000, .i32⟩
  | .hbm, ⟨8, _⟩ => ⟨S2x200000, .i32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S_, .f32⟩
  | .hbm, ⟨61, _⟩ => ⟨S800000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000x1, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x200000, .i32⟩
  | .hbm, ⟨79, _⟩ => ⟨S200000, .i32⟩
  | .hbm, ⟨80, _⟩ => ⟨S1x200000, .i32⟩
  | .hbm, ⟨81, _⟩ => ⟨S200000, .i32⟩
  | .hbm, ⟨82, _⟩ => ⟨S_, .i32⟩
  | .hbm, ⟨83, _⟩ => ⟨S200000, .i32⟩
  | .hbm, ⟨84, _⟩ => ⟨S200000, .i1⟩
  | .hbm, ⟨85, _⟩ => ⟨S_, .i32⟩
  | .hbm, ⟨86, _⟩ => ⟨S200000, .i32⟩
  | .hbm, ⟨87, _⟩ => ⟨S200000, .i32⟩
  | .hbm, ⟨88, _⟩ => ⟨S200000, .i32⟩
  | .hbm, ⟨89, _⟩ => ⟨S200000x1, .i32⟩
  | .hbm, ⟨90, _⟩ => ⟨S200000x128, .f32⟩
  | .hbm, ⟨91, _⟩ => ⟨S_, .i32⟩
  | .hbm, ⟨92, _⟩ => ⟨S200000, .i32⟩
  | .hbm, ⟨93, _⟩ => ⟨S200000, .i1⟩
  | .hbm, ⟨94, _⟩ => ⟨S_, .i32⟩
  | .hbm, ⟨95, _⟩ => ⟨S200000, .i32⟩
  | .hbm, ⟨96, _⟩ => ⟨S200000, .i32⟩
  | .hbm, ⟨97, _⟩ => ⟨S200000, .i32⟩
  | .hbm, ⟨98, _⟩ => ⟨S200000x1, .i32⟩
  | .hbm, ⟨99, _⟩ => ⟨S200000x128, .f32⟩
  | .hbm, ⟨100, _⟩ => ⟨S200000x128, .f32⟩
  | .hbm, ⟨101, _⟩ => ⟨S_, .f32⟩
  | .hbm, ⟨102, _⟩ => ⟨S200000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  reducesTo_S200000x128_S200000_d1 : S200000x128.ReducesTo [1] S200000
  h_S_ : 0 < S_.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S200000x1_S200000x128_1_0_n_n_0_1_1128_wf : GatherDims.WF S50000x128 S200000x1 S200000x128 [1] [0] [] [0] [] 1 ![1, 128]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf

class Facts : Prop extends Facts₀ where

variable [Facts]
-- ==== Proof.RStage.lean ====
/-
  The reference program, stage by stage, as pure functions of arrays: a row of an edge list; a node index as the gather
  reads it (a negative one counts from the end of the 50000 rows); the gathered rows; the mean over incoming edges; one
  SAGE layer `agg · Wl + b + h · Wr`; the rectifier; and the score of a pair of nodes, the inner product of their rows.
-/
import proofs.«430444_j27058293965203_1_alg».proof.ReferenceIdeal

noncomputable section

namespace Cert.ReferenceIdeal.Stage

open Idealize.ShloMosaic Cert.ReferenceIdeal Cert.ReferenceIdeal.Facts₀ Cert.ReferenceIdeal.Facts

variable {F : FTy → Type} [FloatOps F] [Cert.ReferenceIdeal.Facts]

/-- Row 0 of the `[2, 800000]` edge list: the source node of each edge. -/
def edgeSrc (ei : IVec S2x800000 32) : IVec S800000 32 :=
  shapeCast S800000 (extractStridedSlice S1x800000 ![0, 0] ei slices_S2x800000_S1x800000_0_0) shapeCasts_S1x800000_S800000
/-- Row 1 of the edge list: the destination node of each edge. -/
def edgeDst (ei : IVec S2x800000 32) : IVec S800000 32 :=
  shapeCast S800000 (extractStridedSlice S1x800000 ![1, 0] ei slices_S2x800000_S1x800000_1_0) shapeCasts_S1x800000_S800000
/-- Row 0 of the `[2, 200000]` list of node pairs to score. -/
def pairFst (pe : IVec S2x200000 32) : IVec S200000 32 :=
  shapeCast S200000 (extractStridedSlice S1x200000 ![0, 0] pe slices_S2x200000_S1x200000_0_0) shapeCasts_S1x200000_S200000
/-- Row 1 of the list of node pairs. -/
def pairSnd (pe : IVec S2x200000 32) : IVec S200000 32 :=
  shapeCast S200000 (extractStridedSlice S1x200000 ![1, 0] pe slices_S2x200000_S1x200000_1_0) shapeCasts_S1x200000_S200000

/-- A node index as the gather reads it, `i + 50000` where `i < 0`, as a column of start indices. -/
def wrapE (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- The rows of `x` the indices name. -/
def rowsE (x : FVec F S50000x128 .f32) (i : IVec S800000 32) : FVec F S800000x128 .f32 :=
  Host.gather gather_S50000x128_S800000x1_S800000x128_1_0_n_n_0_1_1128 x (wrapE i)

/-- The mean of the messages over each node's incoming edges: their scatter-add over the destinations, divided by the
    in-degree or by one where no edge arrives. -/
def meanInto (msg : FVec F S800000x128 .f32) (dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) msg)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-- One SAGE layer before its activation: `agg · Wl + b + h · Wr`. -/
def layer (agg h : FVec F S50000x128 .f32) (wl wr : FVec F S128x128 .f32) (b : FVec F S128 .f32) : FVec F S50000x128 .f32 :=
  addf
    (addf (Host.dotGeneral dot_S50000x128_S128x128_S50000x128_1_0_0_1_n_n none agg wl)
      (broadcastInDim S50000x128 ![0, 1] bcast_S1x128_S50000x128_0_1 (broadcastInDim S1x128 ![1] bcast_S128_S1x128_1 b)))
    (Host.dotGeneral dot_S50000x128_S128x128_S50000x128_1_0_0_1_n_n none h wr)

/-- The rectifier: the maximum with zero. -/
def relu (x : FVec F S50000x128 .f32) : FVec F S50000x128 .f32 :=
  maximumf x (broadcastInDim S50000x128 ![] bcast_S_S50000x128 (constant S_ .f32 0x00000000#32))

/-- A node index of a pair as the gather reads it, as a column of start indices. -/
def wrapP (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 50000#32))) i)

/-- The rows of `z` the indices name. -/
def rowsP (z : FVec F S50000x128 .f32) (i : IVec S200000 32) : FVec F S200000x128 .f32 :=
  Host.gather gather_S50000x128_S200000x1_S200000x128_1_0_n_n_0_1_1128 z (wrapP i)

/-- The score of each pair: the inner product of its two rows, summed from zero. -/
def score (zs zd : FVec F S200000x128 .f32) : FVec F S200000 .f32 :=
  Host.reduceAdd (mulf zs zd) (constant S_ .f32 0x00000000#32) reducesTo_S200000x128_S200000_d1 h_S_

/-- The whole reference: two layers, the first rectified, over the mean of the neighbours' rows, then the pairs' scores. -/
def result (x : FVec F S50000x128 .f32) (w1l : FVec F S128x128 .f32) (b1 : FVec F S128 .f32) (w1r w2l : FVec F S128x128 .f32)
    (b2 : FVec F S128 .f32) (w2r : FVec F S128x128 .f32) (ei : IVec S2x800000 32) (pe : IVec S2x200000 32) : FVec F S200000 .f32 :=
  score
    (rowsP (layer (meanInto (rowsE (relu (layer (meanInto (rowsE x (edgeSrc ei)) (edgeDst ei)) x w1l w1r b1)) (edgeSrc ei)) (edgeDst ei))
        (relu (layer (meanInto (rowsE x (edgeSrc ei)) (edgeDst ei)) x w1l w1r b1)) w2l w2r b2) (pairFst pe))
    (rowsP (layer (meanInto (rowsE (relu (layer (meanInto (rowsE x (edgeSrc ei)) (edgeDst ei)) x w1l w1r b1)) (edgeSrc ei)) (edgeDst ei))
        (relu (layer (meanInto (rowsE x (edgeSrc ei)) (edgeDst ei)) x w1l w1r b1)) w2l w2r b2) (pairSnd pe))

end Cert.ReferenceIdeal.Stage

end
-- ==== Proof.RRun.lean ====
/-
  The reference program's run: its result buffer ends holding the staged function of the argument arrays — two SAGE
  layers over the mean of the neighbours' rows, the first rectified, then the pairs' inner products.
-/
import proofs.«430444_j27058293965203_1_alg».proof.Proof.Gen.ReferenceIdeal.Run
import proofs.«430444_j27058293965203_1_alg».proof.Proof.RStage

noncomputable section

namespace Cert.ReferenceIdeal.RunStaged

open Idealize.ShloMosaic Idealize.ShloMosaic.TcCoe Idealize.SL.Sem
open Cert.ReferenceIdeal Cert.ReferenceIdeal.Gen Cert.ReferenceIdeal.Stage

variable {F : FTy → Type} [FloatOps F]

set_option maxRecDepth 16384 in
/-- The composed term the run states for the result is the staged function of the launch contents of the arguments. -/
theorem res_eq (m : (ℓ : Loc nD τ sig) → Buf (Elt F) ℓ) (c : Dev nD) :
    Cert.ReferenceIdeal.Value.res_out0 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  show Cert.ReferenceIdeal.Value.res_main_v74 m c = _
  unfold Cert.ReferenceIdeal.Value.res_main_v74 result score rowsP wrapP layer relu meanInto rowsE wrapE edgeSrc edgeDst pairFst pairSnd
  rfl

end Cert.ReferenceIdeal.RunStaged

end
-- ==== Proof.KStage.lean ====
/-
  The host side of the idealized kernel program, stage by stage, as pure functions of arrays: a row of an edge list;
  a node index as the gather reads it (a negative one counts from the end of the 50000 rows); the test that the
  index then names a row; the gathered rows, and the gathered rows with the not-a-number pattern wherever the test
  fails (`jnp.take`'s fill mode); the mean over incoming edges (a scatter-add of the messages divided by the
  in-degree, at least one).
-/
import proofs.«430444_j27058293965203_1_alg».proof.KernelIdeal

noncomputable section

namespace Cert.KernelIdeal.Stage

open Idealize.ShloMosaic Cert.KernelIdeal Cert.KernelIdeal.Facts₀ Cert.KernelIdeal.Facts

variable {F : FTy → Type} [FloatOps F] [Cert.KernelIdeal.Facts]

/-- Row 0 of the `[2, 800000]` edge list: the source node of each edge. -/
def edgeSrc (ei : IVec S2x800000 32) : IVec S800000 32 :=
  shapeCast S800000 (extractStridedSlice S1x800000 ![0, 0] ei slices_S2x800000_S1x800000_0_0) shapeCasts_S1x800000_S800000
/-- Row 1 of the edge list: the destination node of each edge. -/
def edgeDst (ei : IVec S2x800000 32) : IVec S800000 32 :=
  shapeCast S800000 (extractStridedSlice S1x800000 ![1, 0] ei slices_S2x800000_S1x800000_1_0) shapeCasts_S1x800000_S800000
/-- Row 0 of the `[2, 200000]` list of node pairs to score. -/
def pairFst (pe : IVec S2x200000 32) : IVec S200000 32 :=
  shapeCast S200000 (extractStridedSlice S1x200000 ![0, 0] pe slices_S2x200000_S1x200000_0_0) shapeCasts_S1x200000_S200000
/-- Row 1 of the list of node pairs. -/
def pairSnd (pe : IVec S2x200000 32) : IVec S200000 32 :=
  shapeCast S200000 (extractStridedSlice S1x200000 ![1, 0] pe slices_S2x200000_S1x200000_1_0) shapeCasts_S1x200000_S200000

/-! ## Over the 800000 edges -/

/-- A node index as the gather reads it, `i + 50000` where `i < 0`, as a column of start indices. -/
def wrapE (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Whether a start index names one of the 50000 rows: `0 ≤ j ≤ 49999`. -/
def inRowsE (j : IVec S800000x1 32) : IVec S800000 1 :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `x` the indices name. -/
def rowsE (x : FVec F S50000x128 .f32) (i : IVec S800000 32) : FVec F S800000x128 .f32 :=
  Host.gather gather_S50000x128_S800000x1_S800000x128_1_0_n_n_0_1_1128 x (wrapE i)

/-- The rows of `x` the indices name, and the not-a-number pattern in every row whose index names none. -/
def rowsOrNanE (x : FVec F S50000x128 .f32) (i : IVec S800000 32) : FVec F S800000x128 .f32 :=
  select (broadcastInDim S800000x128 ![0] bcast_S800000_S800000x128_0 (inRowsE (wrapE i)))
    (rowsE x i)
    (broadcastInDim S800000x128 ![] bcast_S_S800000x128 (constant S_ .f32 0x7FC00000#32))

/-- The mean of the messages over each node's incoming edges: their scatter-add over the destinations, divided by the
    in-degree or by one where no edge arrives. -/
def meanInto (msg : FVec F S800000x128 .f32) (dst : IVec S800000 32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) msg)
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

/-! ## Over the 200000 pairs -/

/-- A node index as the gather reads it, as a column of start indices. -/
def wrapP (i : IVec S200000 32) : IVec S200000x1 32 :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 50000#32))) i)

/-- Whether a start index names one of the 50000 rows. -/
def inRowsP (j : IVec S200000x1 32) : IVec S200000 1 :=
  Host.reduce IntOp.andi
    (andi (cmpi .sge j (broadcastInDim S200000x1 ![] bcast_S_S200000x1 (constantI S_ 32 0#32)))
      (cmpi .sle j (broadcastInDim S200000x1 ![0, 1] bcast_S1x1_S200000x1_0_1
        (broadcastInDim S1x1 ![1] bcast_S1_S1x1_1 (constantI S1 32 49999#32)))))
    (constantI S_ 1 1#1) reducesTo_S200000x1_S200000_d1 h_S_

/-- The rows of `z` the indices name. -/
def rowsP (z : FVec F S50000x128 .f32) (i : IVec S200000 32) : FVec F S200000x128 .f32 :=
  Host.gather gather_S50000x128_S200000x1_S200000x128_1_0_n_n_0_1_1128 z (wrapP i)

/-- The rows of `z` the indices name, and the not-a-number pattern in every row whose index names none. -/
def rowsOrNanP (z : FVec F S50000x128 .f32) (i : IVec S200000 32) : FVec F S200000x128 .f32 :=
  select (broadcastInDim S200000x128 ![0] bcast_S200000_S200000x128_0 (inRowsP (wrapP i)))
    (rowsP z i)
    (broadcastInDim S200000x128 ![] bcast_S_S200000x128 (constant S_ .f32 0x7FC00000#32))

end Cert.KernelIdeal.Stage

end
-- ==== Proof.TakeStretch.lean ====
/-
  The four `jnp.take`s of the kernel program, each a stretch of twenty-three host operations, from any contents of the
  buffers they read: the stretch's result buffer ends holding the filled take (the wrapped indices' rows, the
  not-a-number pattern where an index names no row) of its table buffer at its index buffer. The operations name their
  buffers by typed references, which carry a buffer's type by an equation; writing through one and reading back through
  it is the identity, and the few transports left at the stretch's own ends are along reflexivity.
-/
import proofs.«430444_j27058293965203_1_alg».proof.Proof.Gen.KernelIdeal.Launch
import proofs.«430444_j27058293965203_1_alg».proof.Proof.KStage
import Idealize.ShloMosaic.Lib.StableHlo.Run

set_option maxRecDepth 16384

noncomputable section

namespace Cert.KernelIdeal.TakeStretch

open Idealize.ShloMosaic Idealize.ShloMosaic.TcCoe Idealize.ShloMosaic.StableHlo Idealize.SL.Sem
open Cert.KernelIdeal Cert.KernelIdeal.Gen Cert.KernelIdeal.Stage

variable {F : FTy → Type} [FloatOps F]

/-- A typed reference's two transports undo each other. -/
theorem ofBuf_toBuf {T : BufTy} (x : TRef sig T) (v : T.Contents (Elt F)) : x.ofBuf (x.toBuf v) = v := by
  obtain ⟨r, h, _, _⟩ := x
  subst h
  rfl

/-- The first take: the node features' rows at the edges' source nodes. -/
theorem take0 (W : Valuation τ sig (Elt F)) :
    StableHlo.after (hostOps0_1 (F := F)) W (Proc.devRef .tc main_v5)
      = rowsOrNanE (W (Proc.devRef .tc main_arg0)) (W (Proc.devRef .tc main_v1)) := by
  dsimp only [hostOps0_1]
  after_results_simp
  simp only [ofBuf_toBuf]
  simp only [TRef.ofBuf, TRef.toBuf, cast_eq]
  rfl

/-- The second take: the first layer's output's rows at the edges' source nodes. -/
theorem take1 (W : Valuation τ sig (Elt F)) :
    StableHlo.after (hostOps1 (F := F)) W (Proc.devRef .tc main_v19)
      = rowsOrNanE (W (Proc.devRef .tc main_v18)) (W (Proc.devRef .tc main_v1)) := by
  dsimp only [hostOps1]
  after_results_simp
  simp only [ofBuf_toBuf]
  simp only [TRef.ofBuf, TRef.toBuf, cast_eq]
  rfl

/-- The third take: the second layer's output's rows at each pair's first node. -/
theorem take2 (W : Valuation τ sig (Elt F)) :
    StableHlo.after (hostOps2_1 (F := F)) W (Proc.devRef .tc main_v37)
      = rowsOrNanP (W (Proc.devRef .tc main_v32)) (W (Proc.devRef .tc main_v34)) := by
  dsimp only [hostOps2_1]
  after_results_simp
  simp only [ofBuf_toBuf]
  simp only [TRef.ofBuf, TRef.toBuf, cast_eq]
  rfl

/-- The fourth take: the second layer's output's rows at each pair's second node. -/
theorem take3 (W : Valuation τ sig (Elt F)) :
    StableHlo.after (hostOps2_2 (F := F)) W (Proc.devRef .tc main_v38)
      = rowsOrNanP (W (Proc.devRef .tc main_v32)) (W (Proc.devRef .tc main_v36)) := by
  dsimp only [hostOps2_2]
  after_results_simp
  simp only [ofBuf_toBuf]
  simp only [TRef.ofBuf, TRef.toBuf, cast_eq]
  rfl

end Cert.KernelIdeal.TakeStretch

end
-- ==== Proof.Walk.lean ====
/-
  The idealized kernel program's buffers at the boundaries of its segments, read back to the launch contents of the
  arguments: the host operations before each pallas_call as the staged functions (the filled take, the mean over
  incoming edges, a bias as one row), each pallas_call's output array as the pipeline leaves it, and the result buffer,
  the last region's column reshaped to a vector. A buffer that a stretch of host operations does not write keeps its
  contents through it.
-/
import proofs.«430444_j27058293965203_1_alg».proof.Proof.Gen.KernelIdeal.Frame
import proofs.«430444_j27058293965203_1_alg».proof.Proof.KStage
import proofs.«430444_j27058293965203_1_alg».proof.Proof.TakeStretch
import Idealize.ShloMosaic.Lib.StableHlo.Run

set_option maxRecDepth 16384

noncomputable section

namespace Cert.KernelIdeal.Walk

open Idealize.ShloMosaic Idealize.ShloMosaic.TcCoe Idealize.ShloMosaic.StableHlo Idealize.SL.Sem
open Cert.KernelIdeal Cert.KernelIdeal.Gen Cert.KernelIdeal.Stage

variable {F : FTy → Type} [FloatOps F]
variable (m : (ℓ : Loc nD τ sig) → Buf (Elt F) ℓ) (ρ : Dev nD → PrngReg)

/-! ## Names: the launch contents of the arguments on a core, and the three regions' output arrays -/

/-- The node features. -/
abbrev feat (c : Dev nD) := m ((c.tc : Thread nD τ).loc main_arg0)
/-- The first layer's left weights, bias and right weights. -/
abbrev w1l (c : Dev nD) := m ((c.tc : Thread nD τ).loc main_arg1)
abbrev b1 (c : Dev nD) := m ((c.tc : Thread nD τ).loc main_arg2)
abbrev w1r (c : Dev nD) := m ((c.tc : Thread nD τ).loc main_arg3)
/-- The second layer's left weights, bias and right weights. -/
abbrev w2l (c : Dev nD) := m ((c.tc : Thread nD τ).loc main_arg4)
abbrev b2 (c : Dev nD) := m ((c.tc : Thread nD τ).loc main_arg5)
abbrev w2r (c : Dev nD) := m ((c.tc : Thread nD τ).loc main_arg6)
/-- The edge list and the list of pairs to score. -/
abbrev edges (c : Dev nD) := m ((c.tc : Thread nD τ).loc main_arg7)
abbrev pairs (c : Dev nD) := m ((c.tc : Thread nD τ).loc main_arg8)
/-- One per edge: what the in-degree sums. -/
abbrev onePerEdge : FVec F S800000 .f32 := broadcastInDim S800000 ![] bcast_S_S800000 (constant S_ .f32 0x3F800000#32)
/-- What the pipelines leave in the three regions' output arrays. -/
abbrev out0 (c : Dev nD) := (dat0 (V3 m ρ) c).arrAt 5 cfg0.N
abbrev out1 (c : Dev nD) := (dat1 (V6 m ρ) c).arrAt 5 cfg1.N
abbrev out2 (c : Dev nD) := (dat2 (V10 m ρ) c).arrAt 2 cfg2.N

/-! ## Before the first region -/

/-- The edges' source nodes, after the first six host operations. -/
theorem W1_v1 (c : Dev nD) : W1 m ρ c (Proc.devRef .tc main_v1) = edgeSrc (edges m c) := by
  dsimp only [W1, W0, hostOps0]
  after_results_simp
  try rfl
theorem W1_arg0 (c : Dev nD) : W1 m ρ c (Proc.devRef .tc main_arg0) = feat m c := by
  dsimp only [W1, W0, hostOps0]
  after_results_simp
  try rfl
/-- The filled take of the node features at the edges' source nodes. -/
theorem W2_v5 (c : Dev nD) : W2 m ρ c (Proc.devRef .tc main_v5) = rowsOrNanE (feat m c) (edgeSrc (edges m c)) := by
  refine (TakeStretch.take0 (W1 m ρ c)).trans ?_
  rw [W1_arg0, W1_v1]
/-- The edges' destination nodes, the ones and the first bias pass through the take. -/
theorem W2_v3 (c : Dev nD) : W2 m ρ c (Proc.devRef .tc main_v3) = edgeDst (edges m c) := by
  dsimp only [W2, W1, W0, hostOps0, hostOps0_1]
  after_results_simp
  try rfl
theorem W2_v4 (c : Dev nD) : W2 m ρ c (Proc.devRef .tc main_v4) = onePerEdge := by
  dsimp only [W2, W1, W0, hostOps0, hostOps0_1]
  after_results_simp
  try rfl
theorem W2_arg2 (c : Dev nD) : W2 m ρ c (Proc.devRef .tc main_arg2) = b1 m c := by
  dsimp only [W2, W1, W0, hostOps0, hostOps0_1]
  after_results_simp
  try rfl

/-! ## At the first region's entry -/

/-- The aggregated neighbours of the first layer: the mean over incoming edges of the filled take of the features. -/
theorem W3_v16 (c : Dev nD) :
    W3 m ρ c (Proc.devRef .tc main_v16) = meanInto (rowsOrNanE (feat m c) (edgeSrc (edges m c))) (edgeDst (edges m c)) := by
  have e5 := W2_v5 m ρ c
  have e3 := W2_v3 m ρ c
  have e4 := W2_v4 m ρ c
  show StableHlo.after hostOps0_2 (W2 m ρ c) _ = _
  generalize W2 m ρ c = W at e5 e3 e4 ⊢
  dsimp only [hostOps0_2]
  after_results_simp
  rw [e5, e3, e4]
  rfl
/-- The first bias as one row. -/
theorem W3_v17 (c : Dev nD) : W3 m ρ c (Proc.devRef .tc main_v17) = shapeCast S1x128 (b1 m c) shapeCasts_S128_S1x128 := by
  have e2 := W2_arg2 m ρ c
  show StableHlo.after hostOps0_2 (W2 m ρ c) _ = _
  generalize W2 m ρ c = W at e2 ⊢
  dsimp only [hostOps0_2]
  after_results_simp
  rw [e2]
  try rfl
/-- The features and the first layer's weights are as launched. -/
theorem W3_arg0 (c : Dev nD) : W3 m ρ c (Proc.devRef .tc main_arg0) = feat m c := by
  dsimp only [W3, W2, W1, W0, hostOps0, hostOps0_1, hostOps0_2]
  after_results_simp
  try rfl
theorem W3_arg1 (c : Dev nD) : W3 m ρ c (Proc.devRef .tc main_arg1) = w1l m c := by
  dsimp only [W3, W2, W1, W0, hostOps0, hostOps0_1, hostOps0_2]
  after_results_simp
  try rfl
theorem W3_arg3 (c : Dev nD) : W3 m ρ c (Proc.devRef .tc main_arg3) = w1r m c := by
  dsimp only [W3, W2, W1, W0, hostOps0, hostOps0_1, hostOps0_2]
  after_results_simp
  try rfl
/-- What the later stretches still read: the edges' two rows, the ones, the second layer's parameters, the pairs. -/
theorem W3_v1 (c : Dev nD) : W3 m ρ c (Proc.devRef .tc main_v1) = edgeSrc (edges m c) := by
  dsimp only [W3, W2, W1, W0, hostOps0, hostOps0_1, hostOps0_2]
  after_results_simp
  try rfl
theorem W3_v3 (c : Dev nD) : W3 m ρ c (Proc.devRef .tc main_v3) = edgeDst (edges m c) := by
  dsimp only [W3, W2, W1, W0, hostOps0, hostOps0_1, hostOps0_2]
  after_results_simp
  try rfl
theorem W3_v4 (c : Dev nD) : W3 m ρ c (Proc.devRef .tc main_v4) = onePerEdge := by
  dsimp only [W3, W2, W1, W0, hostOps0, hostOps0_1, hostOps0_2]
  after_results_simp
  try rfl
theorem W3_arg4 (c : Dev nD) : W3 m ρ c (Proc.devRef .tc main_arg4) = w2l m c := by
  dsimp only [W3, W2, W1, W0, hostOps0, hostOps0_1, hostOps0_2]
  after_results_simp
  try rfl
theorem W3_arg5 (c : Dev nD) : W3 m ρ c (Proc.devRef .tc main_arg5) = b2 m c := by
  dsimp only [W3, W2, W1, W0, hostOps0, hostOps0_1, hostOps0_2]
  after_results_simp
  try rfl
theorem W3_arg6 (c : Dev nD) : W3 m ρ c (Proc.devRef .tc main_arg6) = w2r m c := by
  dsimp only [W3, W2, W1, W0, hostOps0, hostOps0_1, hostOps0_2]
  after_results_simp
  try rfl
theorem W3_arg8 (c : Dev nD) : W3 m ρ c (Proc.devRef .tc main_arg8) = pairs m c := by
  dsimp only [W3, W2, W1, W0, hostOps0, hostOps0_1, hostOps0_2]
  after_results_simp
  try rfl

/-! ## At the first region's exit: its output array, every other buffer as entered -/

theorem W4_v18 (c : Dev nD) : W4 m ρ c (Proc.devRef .tc main_v18) = out0 m ρ c := W4_arr m ρ c 5
theorem W4_v1 (c : Dev nD) : W4 m ρ c (Proc.devRef .tc main_v1) = edgeSrc (edges m c) :=
  (W4_of_ne m ρ c main_v1 (by decide)).trans (W3_v1 m ρ c)
theorem W4_v3 (c : Dev nD) : W4 m ρ c (Proc.devRef .tc main_v3) = edgeDst (edges m c) :=
  (W4_of_ne m ρ c main_v3 (by decide)).trans (W3_v3 m ρ c)
theorem W4_v4 (c : Dev nD) : W4 m ρ c (Proc.devRef .tc main_v4) = onePerEdge :=
  (W4_of_ne m ρ c main_v4 (by decide)).trans (W3_v4 m ρ c)
theorem W4_arg4 (c : Dev nD) : W4 m ρ c (Proc.devRef .tc main_arg4) = w2l m c :=
  (W4_of_ne m ρ c main_arg4 (by decide)).trans (W3_arg4 m ρ c)
theorem W4_arg5 (c : Dev nD) : W4 m ρ c (Proc.devRef .tc main_arg5) = b2 m c :=
  (W4_of_ne m ρ c main_arg5 (by decide)).trans (W3_arg5 m ρ c)
theorem W4_arg6 (c : Dev nD) : W4 m ρ c (Proc.devRef .tc main_arg6) = w2r m c :=
  (W4_of_ne m ρ c main_arg6 (by decide)).trans (W3_arg6 m ρ c)
theorem W4_arg8 (c : Dev nD) : W4 m ρ c (Proc.devRef .tc main_arg8) = pairs m c :=
  (W4_of_ne m ρ c main_arg8 (by decide)).trans (W3_arg8 m ρ c)

/-! ## Between the first and the second region -/

/-- The filled take of the first layer's output at the edges' source nodes. -/
theorem W5_v19 (c : Dev nD) : W5 m ρ c (Proc.devRef .tc main_v19) = rowsOrNanE (out0 m ρ c) (edgeSrc (edges m c)) := by
  refine (TakeStretch.take1 (W4 m ρ c)).trans ?_
  rw [W4_v18, W4_v1]
theorem W5_v3 (c : Dev nD) : W5 m ρ c (Proc.devRef .tc main_v3) = edgeDst (edges m c) := by
  dsimp only [W5, hostOps1]
  after_results_simp
  exact W4_v3 m ρ c
theorem W5_v4 (c : Dev nD) : W5 m ρ c (Proc.devRef .tc main_v4) = onePerEdge := by
  dsimp only [W5, hostOps1]
  after_results_simp
  exact W4_v4 m ρ c
theorem W5_v18 (c : Dev nD) : W5 m ρ c (Proc.devRef .tc main_v18) = out0 m ρ c := by
  dsimp only [W5, hostOps1]
  after_results_simp
  exact W4_v18 m ρ c
theorem W5_arg4 (c : Dev nD) : W5 m ρ c (Proc.devRef .tc main_arg4) = w2l m c := by
  dsimp only [W5, hostOps1]
  after_results_simp
  exact W4_arg4 m ρ c
theorem W5_arg5 (c : Dev nD) : W5 m ρ c (Proc.devRef .tc main_arg5) = b2 m c := by
  dsimp only [W5, hostOps1]
  after_results_simp
  exact W4_arg5 m ρ c
theorem W5_arg6 (c : Dev nD) : W5 m ρ c (Proc.devRef .tc main_arg6) = w2r m c := by
  dsimp only [W5, hostOps1]
  after_results_simp
  exact W4_arg6 m ρ c
theorem W5_arg8 (c : Dev nD) : W5 m ρ c (Proc.devRef .tc main_arg8) = pairs m c := by
  dsimp only [W5, hostOps1]
  after_results_simp
  exact W4_arg8 m ρ c

/-! ## At the second region's entry -/

/-- The aggregated neighbours of the second layer: the same mean, of the filled take of the first layer's output. -/
theorem W6_v30 (c : Dev nD) :
    W6 m ρ c (Proc.devRef .tc main_v30) = meanInto (rowsOrNanE (out0 m ρ c) (edgeSrc (edges m c))) (edgeDst (edges m c)) := by
  have e19 := W5_v19 m ρ c
  have e3 := W5_v3 m ρ c
  have e4 := W5_v4 m ρ c
  show StableHlo.after hostOps1_1 (W5 m ρ c) _ = _
  generalize W5 m ρ c = W at e19 e3 e4 ⊢
  dsimp only [hostOps1_1]
  after_results_simp
  rw [e19, e3, e4]
  rfl
/-- The second bias as one row. -/
theorem W6_v31 (c : Dev nD) : W6 m ρ c (Proc.devRef .tc main_v31) = shapeCast S1x128 (b2 m c) shapeCasts_S128_S1x128 := by
  have e5 := W5_arg5 m ρ c
  show StableHlo.after hostOps1_1 (W5 m ρ c) _ = _
  generalize W5 m ρ c = W at e5 ⊢
  dsimp only [hostOps1_1]
  after_results_simp
  rw [e5]
  try rfl
/-- The first layer's output and the second layer's weights pass through. -/
theorem W6_v18 (c : Dev nD) : W6 m ρ c (Proc.devRef .tc main_v18) = out0 m ρ c := by
  have e := W5_v18 m ρ c
  show StableHlo.after hostOps1_1 (W5 m ρ c) _ = _
  generalize W5 m ρ c = W at e ⊢
  dsimp only [hostOps1_1]
  after_results_simp
  exact e
theorem W6_arg4 (c : Dev nD) : W6 m ρ c (Proc.devRef .tc main_arg4) = w2l m c := by
  have e := W5_arg4 m ρ c
  show StableHlo.after hostOps1_1 (W5 m ρ c) _ = _
  generalize W5 m ρ c = W at e ⊢
  dsimp only [hostOps1_1]
  after_results_simp
  exact e
theorem W6_arg6 (c : Dev nD) : W6 m ρ c (Proc.devRef .tc main_arg6) = w2r m c := by
  have e := W5_arg6 m ρ c
  show StableHlo.after hostOps1_1 (W5 m ρ c) _ = _
  generalize W5 m ρ c = W at e ⊢
  dsimp only [hostOps1_1]
  after_results_simp
  exact e
theorem W6_arg8 (c : Dev nD) : W6 m ρ c (Proc.devRef .tc main_arg8) = pairs m c := by
  have e := W5_arg8 m ρ c
  show StableHlo.after hostOps1_1 (W5 m ρ c) _ = _
  generalize W5 m ρ c = W at e ⊢
  dsimp only [hostOps1_1]
  after_results_simp
  exact e

/-! ## From the second region's exit to the third's entry -/

theorem W7_v32 (c : Dev nD) : W7 m ρ c (Proc.devRef .tc main_v32) = out1 m ρ c := W7_arr m ρ c 5
theorem W7_arg8 (c : Dev nD) : W7 m ρ c (Proc.devRef .tc main_arg8) = pairs m c :=
  (W7_of_ne m ρ c main_arg8 (by decide)).trans (W6_arg8 m ρ c)
/-- Each pair's first and second node. -/
theorem W8_v34 (c : Dev nD) : W8 m ρ c (Proc.devRef .tc main_v34) = pairFst (pairs m c) := by
  dsimp only [W8, hostOps2]
  after_results_simp
  rw [W7_arg8]
  try rfl
theorem W8_v36 (c : Dev nD) : W8 m ρ c (Proc.devRef .tc main_v36) = pairSnd (pairs m c) := by
  dsimp only [W8, hostOps2]
  after_results_simp
  rw [W7_arg8]
  try rfl
theorem W8_v32 (c : Dev nD) : W8 m ρ c (Proc.devRef .tc main_v32) = out1 m ρ c := by
  dsimp only [W8, hostOps2]
  after_results_simp
  exact W7_v32 m ρ c
/-- The first node's row of every pair: the filled take of the second layer's output. -/
theorem W9_v37 (c : Dev nD) : W9 m ρ c (Proc.devRef .tc main_v37) = rowsOrNanP (out1 m ρ c) (pairFst (pairs m c)) := by
  refine (TakeStretch.take2 (W8 m ρ c)).trans ?_
  rw [W8_v32, W8_v34]
theorem W9_v36 (c : Dev nD) : W9 m ρ c (Proc.devRef .tc main_v36) = pairSnd (pairs m c) := by
  have e := W8_v36 m ρ c
  show StableHlo.after hostOps2_1 (W8 m ρ c) _ = _
  generalize W8 m ρ c = W at e ⊢
  dsimp only [hostOps2_1]
  after_results_simp
  exact e
theorem W9_v32 (c : Dev nD) : W9 m ρ c (Proc.devRef .tc main_v32) = out1 m ρ c := by
  have e := W8_v32 m ρ c
  show StableHlo.after hostOps2_1 (W8 m ρ c) _ = _
  generalize W8 m ρ c = W at e ⊢
  dsimp only [hostOps2_1]
  after_results_simp
  exact e
theorem W10_v37 (c : Dev nD) : W10 m ρ c (Proc.devRef .tc main_v37) = rowsOrNanP (out1 m ρ c) (pairFst (pairs m c)) := by
  have e := W9_v37 m ρ c
  show StableHlo.after hostOps2_2 (W9 m ρ c) _ = _
  generalize W9 m ρ c = W at e ⊢
  dsimp only [hostOps2_2]
  after_results_simp
  exact e
/-- The second node's row of every pair. -/
theorem W10_v38 (c : Dev nD) : W10 m ρ c (Proc.devRef .tc main_v38) = rowsOrNanP (out1 m ρ c) (pairSnd (pairs m c)) := by
  refine (TakeStretch.take3 (W9 m ρ c)).trans ?_
  rw [W9_v32, W9_v36]

/-! ## At the third region's exit, and the result -/

theorem W11_v39 (c : Dev nD) : W11 m ρ c (Proc.devRef .tc main_v39) = out2 m ρ c := W11_arr m ρ c 2

/-- THE RESULT BUFFER at the last boundary: the third region's column as a vector. -/
theorem W12_v40 (c : Dev nD) :
    W12 m ρ c (Proc.devRef .tc main_v40) = shapeCast S200000 (out2 m ρ c) shapeCasts_S200000x1_S200000 := by
  dsimp only [W12, hostOps3]
  after_results_simp
  rw [W11_v39]
  try rfl

end Cert.KernelIdeal.Walk

end
-- ==== Proof.Spec.lean ====
/-
  What the three kernels compute, index by index on the extended reals.
  One SAGE layer at node `p` and feature `q`: the row of aggregated neighbours times column `q` of the left weights, plus
  the node's own row times column `q` of the right weights, plus the bias at `q`; the rectified layer is its maximum with
  zero; the score of pair `e` is the inner product of the pair's two rows.
-/
import Idealize.ShloMosaic.PureOps.Ideal
import Idealize.ShloMosaic.Lib.ValueIdx

noncomputable section

namespace Cert.Spec

open Idealize.ShloMosaic Idealize.ShloMosaic.ValueIdx

/-- 50000 nodes by 128 features. -/
abbrev Nodes : Shape := ⟨2, ![50000, 128]⟩
/-- A 128 by 128 weight matrix. -/
abbrev Wts : Shape := ⟨2, ![128, 128]⟩
/-- A bias as one row. -/
abbrev Row : Shape := ⟨2, ![1, 128]⟩
/-- 200000 gathered rows of 128 features. -/
abbrev Pairs : Shape := ⟨2, ![200000, 128]⟩
/-- 200000 scores as one column. -/
abbrev Col : Shape := ⟨2, ![200000, 1]⟩

/-- One SAGE layer before its activation, `(agg · Wl + h · Wr) + b`, at a node and a feature. -/
def sage (agg h : Nodes.Idx → EReal) (wl wr : Wts.Idx → EReal) (b : Row.Idx → EReal) : Nodes.Idx → EReal := fun i =>
  (∑ k : Fin 128, agg (ix2 (i 0 : Fin 50000) k) * wl (ix2 k (i 1 : Fin 128)))
    + (∑ k : Fin 128, h (ix2 (i 0 : Fin 50000) k) * wr (ix2 k (i 1 : Fin 128)))
    + b (ix2 (0 : Fin 1) (i 1 : Fin 128))

/-- The rectified layer. -/
def sageRelu (agg h : Nodes.Idx → EReal) (wl wr : Wts.Idx → EReal) (b : Row.Idx → EReal) : Nodes.Idx → EReal := fun i =>
  max (sage agg h wl wr b i) 0

/-- The inner product of the two rows of each pair. -/
def pairDot (zs zd : Pairs.Idx → EReal) : Col.Idx → EReal := fun i =>
  ∑ d : Fin 128, zs (ix2 (i 0 : Fin 200000) d) * zd (ix2 (i 0 : Fin 200000) d)

end Cert.Spec

end
-- ==== Proof.RegionSage0.lean ====
/-
  The first pallas_call's output array after its ten grid points: the rectified SAGE layer of the arrays the region finds, index by index.
-/
import proofs.«430444_j27058293965203_1_alg».proof.Proof.Gen.KernelIdeal.Frame
import proofs.«430444_j27058293965203_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionSage0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One matrix product of the body at a row and a column -/

/-- Where the product reads its operands, axis by axis: the left operand at the output's row and the contraction's coordinate,
    the right operand at the contraction's coordinate and the output's column. -/
theorem lhs_rowsByCols_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_rowsByCols_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_rowsByCols_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_rowsByCols_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product accumulated into the zero block, at row `p` and column `q`: the row of the left operand against the column of the right. -/
theorem matmul_at {φ₁ φ₂ : FTy} (lhs : FVec Ideal S5000x128 φ₁) (rhs : FVec Ideal S128x128 φ₂) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  refine (Ideal.matmul_constant_zero_apply dot_S5000x128_S128x128_S5000x128_1_0_0_1_n_n none lhs rhs (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_rowsByCols_0 _ _
    | ⟨1, _⟩ => exact (lhs_rowsByCols_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_rowsByCols_0 _ _).trans hk
    | ⟨1, _⟩ => exact rhs_rowsByCols_1 _ _)
  rw [el, er]

/-- The bias row spread over the block, at row `p` and column `q`: the bias at `q`. -/
theorem biasRow_at (b : Vec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) fun a => ?_
  match a with
  | ⟨0, _⟩ => rfl
  | ⟨1, _⟩ => rfl

/-- What the body stores, at row `p` and column `q` of its block. -/
theorem pay_at (x0 x1 : Vec Ideal S5000x128 .f32) (x2 x3 : Vec Ideal S128x128 .f32) (x4 : Vec Ideal S1x128 .f32) (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix2 (0 : Fin 1) q)) 0 := by
  unfold k0_pay1
  simp only [shapeCast_self]
  rw [maximumf_apply, addf_apply, addf_apply, broadcast_apply, biasRow_at, matmul_at, matmul_at]
  simp only [truncf_apply]
  show max _ (Ideal.ofBits .f32 0x00000000#32) = _
  rw [Ideal.ofBits_zero_f32]

/-- Blocks that read the five arrays where an index `i` of the node array says — the two node blocks' row `p` is the arrays' row
    `i 0`, the weights' column `q` is their column `i 1`, the bias block's entry `q` is the bias at `i 1` — store, at row `p` and
    column `q`, the rectified layer at `i`. -/
theorem pay_eq_sageRelu (A H : Cert.Spec.Nodes.Idx → EReal) (Wl Wr : Cert.Spec.Wts.Idx → EReal) (B : Cert.Spec.Row.Idx → EReal)
    (x0 x1 : Vec Ideal S5000x128 .f32) (x2 x3 : Vec Ideal S128x128 .f32) (x4 : Vec Ideal S1x128 .f32)
    (i : Cert.Spec.Nodes.Idx) (p : Fin 5000) (q : Fin 128)
    (h0 : ∀ k : Fin 128, x0 (ix2 p k) = A (ix2 (i 0 : Fin 50000) k))
    (h1 : ∀ k : Fin 128, x1 (ix2 p k) = H (ix2 (i 0 : Fin 50000) k))
    (h2 : ∀ k : Fin 128, x2 (ix2 k q) = Wl (ix2 k (i 1 : Fin 128)))
    (h3 : ∀ k : Fin 128, x3 (ix2 k q) = Wr (ix2 k (i 1 : Fin 128)))
    (h4 : x4 (ix2 (0 : Fin 1) q) = B (ix2 (0 : Fin 1) (i 1 : Fin 128))) :
    k0_pay1 (F := Ideal) x0 x1 x2 x3 x4 (ix2 p q) = Cert.Spec.sageRelu A H Wl Wr B i := by
  rw [pay_at]
  simp only [h0, h1, h2, h3, h4]
  rfl

/-! ## From the blocks to the array -/

/-- The body loads and stores its whole staging buffers: every offset is zero. -/
theorem zeroOffsets : (![0, 0] : Fin 2 → Nat) = fun _ => 0 := funext fun a => by fin_cases a <;> rfl

/-- The index maps over the ten points: the two node windows move with the output's rows, the weights and the bias stay. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 9 :=
  (by decide +kernel : ∀ t : Fin grid0.N, _)

/-- Every block of rows is some point's. -/
theorem index_onto : ∀ r : Fin 10, ∃ t : Fin cfg0.N, win0_5.index t = ![r.val, 0] :=
  (by decide +kernel : ∀ r : Fin 10, ∃ t : Fin grid0.N, win0_5.index t = ![r.val, 0])

/-- What point `t` writes back is block `t` of the rectified layer of the operand arrays. -/
theorem flushed_eq (c : Dev nD) (t : Fin cfg0.N) :
    (dat0 (F := Ideal) V c).flushed 5 t
      = ((cfg0.win 5).blk t).view.read (Elt Ideal)
          (Cert.Spec.sageRelu (V c main_v16) (V c main_arg0) (V c main_arg1) (V c main_arg3) (V c main_v17)) := by
  show (cfg0.win 5).cut (grid0.coords t) ((dat0 V c).after 5 t) = _
  rw [after0_5]
  unfold out0_5
  rw [View.canon_unit_zero zeroOffsets]
  simp only [View.ld_unit_zero (S := S5000x128) zeroOffsets, View.ld_unit_zero (S := S128x128) zeroOffsets, View.ld_unit_zero (S := S1x128) zeroOffsets]
  obtain ⟨e00, e01, e10, e11, e20, e21, e30, e31, e40, e41, e51, e50⟩ := index_facts t
  funext y
  obtain ⟨p, q, rfl⟩ : ∃ (p : Fin 5000) (q : Fin 128), y = ix2 p q := ⟨y 0, y 1, eq_ix2 y⟩
  refine pay_eq_sageRelu (V c main_v16) (V c main_arg0) (V c main_arg1) (V c main_arg3) (V c main_v17)
    (iblk0 V c 0 t) (iblk0 V c 1 t) (iblk0 V c 2 t) (iblk0 V c 3 t) (iblk0 V c 4 t)
    (((cfg0.win 5).blk t).view.emb (ix2 p q)) p q ?_ ?_ ?_ ?_ ?_
  · intro k
    show V c main_v16 (((cfg0.win 0).blk t).view.emb (ix2 p k)) = V c main_v16 _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = V c main_arg0 _
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg1 (((cfg0.win 2).blk t).view.emb (ix2 k q)) = V c main_arg1 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg3 (((cfg0.win 3).blk t).view.emb (ix2 k q)) = V c main_arg3 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v17 (((cfg0.win 4).blk t).view.emb (ix2 (0 : Fin 1) q)) = V c main_v17 _
    refine congrArg _ (funext fun a => Fin.ext ?_)
    match a with
    | ⟨0, _⟩ => show win0_4.index t (0 : Fin 2) * 1 + 1 * (0 : Fin 1).val = (0 : Fin 1).val; omega
    | ⟨1, _⟩ => show win0_4.index t (1 : Fin 2) * 128 + 1 * q.val = win0_5.index t (1 : Fin 2) * 128 + 1 * q.val; omega

/-- An index of the node array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v18).slice (win0_5.rect t)).set ↔ _
  rw [View.set_slice_whole, Rect.mem_set_unit]
  exact Iff.rfl

/-- Row `r` of the node array is in the block of the point whose block index is `r / 5000`. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array the first region's output window ends holding: the rectified layer of the region's five operand arrays. -/
theorem final0 (c : Dev nD) :
    (dat0 (F := Ideal) V c).arrAt 5 cfg0.N
      = Cert.Spec.sageRelu (V c main_v16) (V c main_arg0) (V c main_arg1) (V c main_arg3) (V c main_v17) :=
  (dat0 (F := Ideal) V c).arrAt_eq_of_cover 5 _ (fun t _ => flushed_eq V c t) covered

end Cert.KernelIdeal.RegionSage0

end
-- ==== Proof.RegionSage1.lean ====
/-
  The second pallas_call's output array after its ten grid points: the SAGE layer (no activation) of the arrays the region finds, index by index.
-/
import proofs.«430444_j27058293965203_1_alg».proof.Proof.Gen.KernelIdeal.Frame
import proofs.«430444_j27058293965203_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionSage1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's two matrix products and its bias row, at a row and a column -/

/-- The left operand of a product is read at the output's row … -/
theorem lhs_axis0 (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the contraction's coordinate; -/
theorem lhs_axis1 (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ

/-- the right operand at the contraction's coordinate … -/
theorem rhs_axis0 (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ

/-- … and the output's column. -/
theorem rhs_axis1 (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product accumulated into zeros, at row `p` and column `q`: row `p` of the left operand against column `q` of the right,
    summed over the 128 shared coordinates. -/
theorem product_at {φl φr : FTy} (a : FVec Ideal S5000x128 φl) (w : FVec Ideal S128x128 φr) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have hl : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun ax => Fin.ext (by
      match ax with
      | ⟨0, _⟩ => exact lhs_axis0 _ _
      | ⟨1, _⟩ => exact (lhs_axis1 _ _).trans hk)
  have hr : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun ax => Fin.ext (by
      match ax with
      | ⟨0, _⟩ => exact (rhs_axis0 _ _).trans hk
      | ⟨1, _⟩ => exact rhs_axis1 _ _)
  rw [hl, hr]

/-- The bias row repeated down the block, at row `p` and column `q`, is the bias at `q`. -/
theorem bias_at (b : Vec Ideal S1x128 .f32) (p : Fin 5000) (q : Fin 128) :
    broadcastTo S5000x128 b broadcasts_S1x128_S5000x128 (ix2 p q) = b (ix2 (0 : Fin 1) q) := by
  refine broadcastTo_apply b _ (ix2 p q) (ix2 (0 : Fin 1) q) fun ax => ?_
  match ax with
  | ⟨0, _⟩ => rfl
  | ⟨1, _⟩ => rfl

/-- What the body stores at row `p` and column `q` of its block: the two products and the bias, added; no activation. -/
theorem stored_at (agg h : Vec Ideal S5000x128 .f32) (wl wr : Vec Ideal S128x128 .f32) (b : Vec Ideal S1x128 .f32)
    (p : Fin 5000) (q : Fin 128) :
    k1_pay1 (F := Ideal) agg h wl wr b (ix2 p q)
      = (∑ k : Fin 128, agg (ix2 p k) * wl (ix2 k q)) + (∑ k : Fin 128, h (ix2 p k) * wr (ix2 k q)) + b (ix2 (0 : Fin 1) q) := by
  unfold k1_pay1
  simp only [shapeCast_self]
  rw [addf_apply, addf_apply, bias_at, product_at, product_at]
  simp only [truncf_apply]

/-- Suppose the five blocks read the five arrays where an index `i` of the node array says: row `p` of the two node blocks is row
    `i 0` of their arrays, column `q` of the two weight blocks is column `i 1` of the weights, and entry `q` of the bias block is
    the bias at `i 1`. Then what the body stores at row `p` and column `q` is the layer at `i`. -/
theorem stored_eq_sage (Agg Hid : Cert.Spec.Nodes.Idx → EReal) (Wl Wr : Cert.Spec.Wts.Idx → EReal) (Bias : Cert.Spec.Row.Idx → EReal)
    (agg h : Vec Ideal S5000x128 .f32) (wl wr : Vec Ideal S128x128 .f32) (b : Vec Ideal S1x128 .f32)
    (i : Cert.Spec.Nodes.Idx) (p : Fin 5000) (q : Fin 128)
    (hagg : ∀ k : Fin 128, agg (ix2 p k) = Agg (ix2 (i 0 : Fin 50000) k))
    (hh : ∀ k : Fin 128, h (ix2 p k) = Hid (ix2 (i 0 : Fin 50000) k))
    (hwl : ∀ k : Fin 128, wl (ix2 k q) = Wl (ix2 k (i 1 : Fin 128)))
    (hwr : ∀ k : Fin 128, wr (ix2 k q) = Wr (ix2 k (i 1 : Fin 128)))
    (hb : b (ix2 (0 : Fin 1) q) = Bias (ix2 (0 : Fin 1) (i 1 : Fin 128))) :
    k1_pay1 (F := Ideal) agg h wl wr b (ix2 p q) = Cert.Spec.sage Agg Hid Wl Wr Bias i := by
  rw [stored_at]
  simp only [hagg, hh, hwl, hwr, hb]
  rfl

/-! ## From the blocks to the array -/

/-- The body loads and stores whole staging buffers: the rectangles' offsets are all zero. -/
theorem offsets_zero : (![0, 0] : Fin 2 → Nat) = fun _ => 0 := funext fun ax => by fin_cases ax <;> rfl

/-- The six index maps at every one of the ten points: the two node windows sit on the output's block of rows, each in its one
    block of columns; the two weight matrices and the bias row are one block each, the same at every point. -/
theorem maps_at : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Each of the ten blocks of rows belongs to some point. -/
theorem rows_onto : ∀ r : Fin 10, ∃ t : Fin cfg1.N, win1_5.index t = ![r.val, 0] :=
  (by decide +kernel : ∀ r : Fin 10, ∃ t : Fin grid1.N, win1_5.index t = ![r.val, 0])

/-- What point `t` writes back to the output array is block `t` of the layer of the five operand arrays. -/
theorem written_back (c : Dev nD) (t : Fin cfg1.N) :
    (dat1 (F := Ideal) V c).flushed 5 t
      = ((cfg1.win 5).blk t).view.read (Elt Ideal)
          (Cert.Spec.sage (V c main_v30) (V c main_v18) (V c main_arg4) (V c main_arg6) (V c main_v31)) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  obtain ⟨a0, a1, h0, h1, l0, l1, r0, r1, b0, b1, o1⟩ := maps_at t
  funext y
  obtain ⟨p, q, rfl⟩ : ∃ (p : Fin 5000) (q : Fin 128), y = ix2 p q := ⟨y 0, y 1, eq_ix2 y⟩
  refine stored_eq_sage (V c main_v30) (V c main_v18) (V c main_arg4) (V c main_arg6) (V c main_v31)
    (iblk1 V c 0 t) (iblk1 V c 1 t) (iblk1 V c 2 t) (iblk1 V c 3 t) (iblk1 V c 4 t)
    (((cfg1.win 5).blk t).view.emb (ix2 p q)) p q ?_ ?_ ?_ ?_ ?_
  · -- the aggregated neighbours' block: the output's rows, all 128 columns
    intro k
    show V c main_v30 (((cfg1.win 0).blk t).view.emb (ix2 p k)) = V c main_v30 _
    refine congrArg _ (funext fun ax => Fin.ext ?_)
    match ax with
    | ⟨0, _⟩ =>
      show win1_0.index t (0 : Fin 2) * 5000 + 1 * p.val = win1_5.index t (0 : Fin 2) * 5000 + 1 * p.val
      omega
    | ⟨1, _⟩ =>
      show win1_0.index t (1 : Fin 2) * 128 + 1 * k.val = k.val
      omega
  · -- the nodes' own block: the same rows
    intro k
    show V c main_v18 (((cfg1.win 1).blk t).view.emb (ix2 p k)) = V c main_v18 _
    refine congrArg _ (funext fun ax => Fin.ext ?_)
    match ax with
    | ⟨0, _⟩ =>
      show win1_1.index t (0 : Fin 2) * 5000 + 1 * p.val = win1_5.index t (0 : Fin 2) * 5000 + 1 * p.val
      omega
    | ⟨1, _⟩ =>
      show win1_1.index t (1 : Fin 2) * 128 + 1 * k.val = k.val
      omega
  · -- the left weights: the whole matrix, read at the output's column
    intro k
    show V c main_arg4 (((cfg1.win 2).blk t).view.emb (ix2 k q)) = V c main_arg4 _
    refine congrArg _ (funext fun ax => Fin.ext ?_)
    match ax with
    | ⟨0, _⟩ =>
      show win1_2.index t (0 : Fin 2) * 128 + 1 * k.val = k.val
      omega
    | ⟨1, _⟩ =>
      show win1_2.index t (1 : Fin 2) * 128 + 1 * q.val = win1_5.index t (1 : Fin 2) * 128 + 1 * q.val
      omega
  · -- the right weights likewise
    intro k
    show V c main_arg6 (((cfg1.win 3).blk t).view.emb (ix2 k q)) = V c main_arg6 _
    refine congrArg _ (funext fun ax => Fin.ext ?_)
    match ax with
    | ⟨0, _⟩ =>
      show win1_3.index t (0 : Fin 2) * 128 + 1 * k.val = k.val
      omega
    | ⟨1, _⟩ =>
      show win1_3.index t (1 : Fin 2) * 128 + 1 * q.val = win1_5.index t (1 : Fin 2) * 128 + 1 * q.val
      omega
  · -- the bias: its one row, at the output's column
    show V c main_v31 (((cfg1.win 4).blk t).view.emb (ix2 (0 : Fin 1) q)) = V c main_v31 _
    refine congrArg _ (funext fun ax => Fin.ext ?_)
    match ax with
    | ⟨0, _⟩ =>
      show win1_4.index t (0 : Fin 2) * 1 + 1 * (0 : Fin 1).val = (0 : Fin 1).val
      omega
    | ⟨1, _⟩ =>
      show win1_4.index t (1 : Fin 2) * 128 + 1 * q.val = win1_5.index t (1 : Fin 2) * 128 + 1 * q.val
      omega

/-- An index of the output array lies in point `t`'s block exactly when, on each axis, its coordinate lies in the block's range. -/
theorem in_block (t : Fin cfg1.N) (i : S50000x128.Idx) :
    i ∈ ((cfg1.win 5).blk t).view.set ↔
      ∀ ax : Fin 2, win1_5.index t ax * S5000x128.size ax ≤ (i ax).val
        ∧ (i ax).val < win1_5.index t ax * S5000x128.size ax + S5000x128.size ax := by
  show i ∈ ((View.whole main_v32).slice (win1_5.rect t)).set ↔ _
  rw [View.set_slice_whole, Rect.mem_set_unit]
  exact Iff.rfl

/-- Every index of the output array is written back by some point: row `r` by the point whose block of rows is number `r / 5000`. -/
theorem every_row_written (i : S50000x128.Idx) :
    ∃ t : Fin cfg1.N, (cfg1.win 5).flush t = true ∧ i ∈ ((cfg1.win 5).blk t).view.set := by
  have hrow : (i 0).val < 50000 := (i 0).isLt
  have hcol : (i 1).val < 128 := (i 1).isLt
  obtain ⟨t, ht⟩ := rows_onto ⟨(i 0).val / 5000, by omega⟩
  have hr : win1_5.index t (0 : Fin 2) = (i 0).val / 5000 := congrFun ht 0
  have hc : win1_5.index t (1 : Fin 2) = 0 := congrFun ht 1
  refine ⟨t, flush1_5 t, ?_⟩
  rw [in_block]
  intro ax
  match ax with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- The array the second region's output window ends holding: the layer of the region's five operand arrays. -/
theorem final1 (c : Dev nD) :
    (dat1 (F := Ideal) V c).arrAt 5 cfg1.N
      = Cert.Spec.sage (V c main_v30) (V c main_v18) (V c main_arg4) (V c main_arg6) (V c main_v31) :=
  (dat1 (F := Ideal) V c).arrAt_eq_of_cover 5 _ (fun t _ => written_back V c t) every_row_written

end Cert.KernelIdeal.RegionSage1

end
-- ==== Proof.RegionDot.lean ====
/-
  The third pallas_call's output column after its forty grid points: the inner product of the two gathered rows of each pair.
-/
import proofs.«430444_j27058293965203_1_alg».proof.Proof.Gen.KernelIdeal.Frame
import proofs.«430444_j27058293965203_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionDot

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The body's payload at row `p`: the sum over the 128 features of the products. -/
theorem pay_at (x0 x1 : Vec Ideal S5000x128 .f32) (p : Fin 5000) :
    k2_pay1 (F := Ideal) x0 x1 (ix2 p (0 : Fin 1)) = ∑ d : Fin 128, x0 (ix2 p d) * x1 (ix2 p d) := by
  unfold k2_pay1
  refine (shapeCast_apply _ _ _ (ix1 p) ?_).trans ?_
  · rw [Shape.rowMajor_val_one, Shape.rowMajor_val_two]
    show p.val = p.val * 1 + 0
    omega
  refine (Ideal.multiReduction_add_single _ _ _ _ _ _).trans ?_
  show ∑ k : Fin 128, _ = _
  refine Finset.sum_congr rfl fun d _ => ?_
  rw [mulf_apply, shapeCast_self, shapeCast_self]
  have hl : reduces_S5000x128_S5000.lift (ix1 p) d = ix2 p d := by
    funext a; apply Fin.ext
    match a with
    | ⟨0, _⟩ => rfl
    | ⟨1, _⟩ => rfl
  rw [hl]

/-- The zero offset of a whole-buffer access, as a constant function. -/
theorem hz : (![0, 0] : Fin 2 → Nat) = fun _ => 0 := funext fun a => by fin_cases a <;> rfl

/-- The index maps over the forty points: both operands' blocks sit at the output's row block, column block zero. -/
theorem idx_facts : ∀ t : Fin cfg2.N, win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) ≤ 39 :=
  (by decide +kernel : ∀ t : Fin grid2.N, win2_0.index t (0 : Fin 2) = win2_2.index t (0 : Fin 2) ∧ win2_0.index t (1 : Fin 2) = 0
    ∧ win2_1.index t (0 : Fin 2) = win2_2.index t (0 : Fin 2) ∧ win2_1.index t (1 : Fin 2) = 0
    ∧ win2_2.index t (1 : Fin 2) = 0 ∧ win2_2.index t (0 : Fin 2) ≤ 39)

/-- Every one of the forty row blocks is some point's. -/
theorem idx_onto : ∀ q : Fin 40, ∃ t : Fin cfg2.N, win2_2.index t = ![q.val, 0] :=
  (by decide +kernel : ∀ q : Fin 40, ∃ t : Fin grid2.N, win2_2.index t = ![q.val, 0])

/-- What point `t` writes back is block `t` of the column of inner products: row `p` of the block is the sum over the
    features of the products of the two operand blocks' rows, and both operand blocks sit at the output block's rows. -/
theorem flushed_eq (c : Dev nD) (t : Fin cfg2.N) :
    (dat2 (F := Ideal) V c).flushed 2 t
      = ((cfg2.win 2).blk t).view.read (Elt Ideal) (Cert.Spec.pairDot (V c main_v37) (V c main_v38)) := by
  show (cfg2.win 2).cut (grid2.coords t) ((dat2 V c).after 2 t) = _
  rw [after2_2]
  unfold out2_2
  rw [View.canon_unit_zero hz]
  simp only [View.ld_unit_zero (S := S5000x128) hz]
  obtain ⟨e0, e1, e2, e3, e4, e5⟩ := idx_facts t
  funext y
  obtain ⟨p, q, rfl⟩ : ∃ (p : Fin 5000) (q : Fin 1), y = ix2 p q := ⟨y 0, y 1, eq_ix2 y⟩
  obtain rfl : q = 0 := Subsingleton.elim _ _
  show k2_pay1 (F := Ideal) (iblk2 V c 0 t) (iblk2 V c 1 t) (ix2 p (0 : Fin 1))
    = Cert.Spec.pairDot (V c main_v37) (V c main_v38) (((cfg2.win 2).blk t).view.emb (ix2 p (0 : Fin 1)))
  rw [pay_at]
  unfold Cert.Spec.pairDot
  refine Finset.sum_congr rfl fun d _ => ?_
  have h0 : ((cfg2.win 0).blk t).view.emb (ix2 p d)
      = (ix2 ((((cfg2.win 2).blk t).view.emb (ix2 p (0 : Fin 1))) 0 : Fin 200000) d : Cert.Spec.Pairs.Idx) := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * d.val = d.val; omega
  have h1 : ((cfg2.win 1).blk t).view.emb (ix2 p d)
      = (ix2 ((((cfg2.win 2).blk t).view.emb (ix2 p (0 : Fin 1))) 0 : Fin 200000) d : Cert.Spec.Pairs.Idx) := by
    funext a; apply Fin.ext
    match a with
    | ⟨0, _⟩ => show win2_1.index t (0 : Fin 2) * 5000 + 1 * p.val = win2_2.index t (0 : Fin 2) * 5000 + 1 * p.val; omega
    | ⟨1, _⟩ => show win2_1.index t (1 : Fin 2) * 128 + 1 * d.val = d.val; omega
  have r0 : iblk2 V c 0 t (ix2 p d) = V c main_v37 (((cfg2.win 0).blk t).view.emb (ix2 p d)) := rfl
  have r1 : iblk2 V c 1 t (ix2 p d) = V c main_v38 (((cfg2.win 1).blk t).view.emb (ix2 p d)) := rfl
  rw [r0, r1, h0, h1]

/-- An index of the column is in point `t`'s block iff each coordinate lies in the block's range on its axis. -/
theorem mem_blk (t : Fin cfg2.N) (i : S200000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v39).slice (win2_2.rect t)).set ↔ _
  rw [View.set_slice_whole, Rect.mem_set_unit]
  exact Iff.rfl

/-- Row `r` of the column lies in the block of the point whose row block is `r / 5000`: the forty blocks fill the column. -/
theorem cover (i : S200000x1.Idx) :
    ∃ t : Fin cfg2.N, (cfg2.win 2).flush t = true ∧ i ∈ ((cfg2.win 2).blk t).view.set := by
  have hi0 : (i 0).val < 200000 := (i 0).isLt
  have hi1 : (i 1).val < 1 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- The column the third region's output window ends holding: each pair's inner product. -/
theorem final2 (c : Dev nD) :
    (dat2 (F := Ideal) V c).arrAt 2 cfg2.N = Cert.Spec.pairDot (V c main_v37) (V c main_v38) :=
  (dat2 V c).arrAt_eq_of_cover 2 _ (fun t _ => flushed_eq V c t) cover

end Cert.KernelIdeal.RegionDot

end
-- ==== Proof.TakeRows.lean ====
/-
  `jnp.take` in its fill mode against plain indexing. Where every index lies in `[-50000, 50000)`, the index the gather
  reads — `i + 50000` for a negative `i` — lies in `[0, 49999]`, so the range test holds in every row and the selected
  array is the gathered rows themselves: the not-a-number fill is never taken.
-/
import proofs.«430444_j27058293965203_1_alg».proof.Proof.KStage
import Idealize.ShloMosaic.Lib.ReduceAll
import Idealize.ShloMosaic.Lib.StableHlo.Predicate
import Idealize.ShloMosaic.Lib.ValueIdx

noncomputable section

namespace Cert.KernelIdeal.TakeRows

open Idealize.ShloMosaic Idealize.ShloMosaic.ValueIdx Cert.KernelIdeal Cert.KernelIdeal.Stage

/-! ## One word: a wrapped index in `[-50000, 50000)` names a row -/

/-- For a signed word `w` in `[-50000, 50000)`, the word `w + 50000` if `w < 0` and `w` otherwise lies in
    `[0, 49999]`: both range tests on it read 1. -/
theorem wrap_inRows (w : BitVec 32) (h : (-50000 : Int) ≤ w.toInt ∧ w.toInt < 50000) :
    IntOp.cmpi .sge (Scalar.select (IntOp.cmpi .slt w 0#32) (IntOp.addi w 50000#32) w) 0#32 = 1#1
    ∧ IntOp.cmpi .sle (Scalar.select (IntOp.cmpi .slt w 0#32) (IntOp.addi w 50000#32) w) 49999#32 = 1#1 := by
  obtain ⟨h1, h2⟩ := h
  have h0 : (0#32 : BitVec 32).toInt = 0 := by decide
  have h49 : (49999#32 : BitVec 32).toInt = 49999 := by decide
  have h50 : (50000#32 : BitVec 32).toInt = 50000 := by decide
  by_cases hn : w.toInt < 0
  · -- a negative index: the sum `w + 50000` does not wrap and lies in `[0, 49999]`
    have hc : IntOp.cmpi .slt w 0#32 = 1#1 := by
      simp only [IntOp.cmpi, StableHlo.Predicate.ofBool_eq_one_iff, BitVec.slt, decide_eq_true_eq, h0]; exact hn
    have hv : (IntOp.addi w 50000#32).toInt = w.toInt + 50000 := by
      unfold IntOp.addi
      rw [BitVec.toInt_add, h50]
      exact Int.bmod_eq_of_le (by omega) (by omega)
    rw [hc, select_one]
    simp only [IntOp.cmpi, StableHlo.Predicate.ofBool_eq_one_iff, BitVec.sle, decide_eq_true_eq, h0, h49, hv]
    omega
  · -- a non-negative index is kept, and is below 50000
    have hc : IntOp.cmpi .slt w 0#32 = 0#1 := by
      apply eq_zero_of_ne_one
      simp only [IntOp.cmpi, StableHlo.Predicate.ofBool_eq_one_iff, BitVec.slt, decide_eq_true_eq, h0]; exact hn
    rw [hc, select_zero]
    simp only [IntOp.cmpi, StableHlo.Predicate.ofBool_eq_one_iff, BitVec.sle, decide_eq_true_eq, h0, h49]
    omega

/-! ## A reduction by `and` of 1s from 1 is 1 -/

/-- A left fold by `and` from 1 over a list whose every element reads 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-- A `stablehlo.reduce` by `and` from 1 is 1 at `j` when every operand index that reduces into `j` holds a 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ fun i hi => ?_
  rw [List.mem_filter] at hi
  exact hx i (by simpa using hi.2)

variable {F : FTy → Type} [FloatOps F] [Cert.KernelIdeal.Facts]

/-! ## The range test holds in every row -/

/-- Over the edges: with every index in `[-50000, 50000)` the test "the wrapped index names a row" is 1 everywhere. -/
theorem inRowsE_wrapE (i : IVec S800000 32)
    (h : ∀ e : S800000.Idx, (-50000 : Int) ≤ (i e).toInt ∧ (i e).toInt < 50000) (e : S800000.Idx) :
    inRowsE (wrapE i) e = 1#1 := by
  unfold inRowsE
  refine reduce_andi_one _ _ _ _ _ rfl fun k _ => ?_
  refine IntOp.andi_eq_one.2 ?_
  exact wrap_inRows _ (h _)

/-- Over the pairs: likewise. -/
theorem inRowsP_wrapP (i : IVec S200000 32)
    (h : ∀ e : S200000.Idx, (-50000 : Int) ≤ (i e).toInt ∧ (i e).toInt < 50000) (e : S200000.Idx) :
    inRowsP (wrapP i) e = 1#1 := by
  unfold inRowsP
  refine reduce_andi_one _ _ _ _ _ rfl fun k _ => ?_
  refine IntOp.andi_eq_one.2 ?_
  exact wrap_inRows _ (h _)

/-- Over the edges: with every index in `[-50000, 50000)` the filled take is the plain gather. -/
theorem rowsOrNanE_eq (x : FVec F S50000x128 .f32) (i : IVec S800000 32)
    (h : ∀ e : S800000.Idx, (-50000 : Int) ≤ (i e).toInt ∧ (i e).toInt < 50000) :
    rowsOrNanE x i = rowsE x i := by
  funext j
  unfold rowsOrNanE
  rw [select_apply]
  have hm : broadcastInDim S800000x128 ![0] Facts₀.bcast_S800000_S800000x128_0 (inRowsE (wrapE i)) j = 1#1 :=
    inRowsE_wrapE i h _
  rw [hm, select_one]

/-- Over the pairs: with every index in `[-50000, 50000)` the filled take is the plain gather. -/
theorem rowsOrNanP_eq (z : FVec F S50000x128 .f32) (i : IVec S200000 32)
    (h : ∀ e : S200000.Idx, (-50000 : Int) ≤ (i e).toInt ∧ (i e).toInt < 50000) :
    rowsOrNanP z i = rowsP z i := by
  funext j
  unfold rowsOrNanP
  rw [select_apply]
  have hm : broadcastInDim S200000x128 ![0] Facts₀.bcast_S200000_S200000x128_0 (inRowsP (wrapP i)) j = 1#1 :=
    inRowsP_wrapP i h _
  rw [hm, select_one]

end Cert.KernelIdeal.TakeRows

end
-- ==== Proof.PreRanges.lean ====
/-
  What the precondition says of the three index vectors the programs gather with: every source node of an edge and
  both nodes of every pair to score lie in `[-50000, 50000)`, the indices that name one of the 50000 rows directly or
  counted from the end.
-/
import proofs.«430444_j27058293965203_1_alg».proof.Defs
import proofs.«430444_j27058293965203_1_alg».proof.Proof.Gen.Pre_finite_inputs
import proofs.«430444_j27058293965203_1_alg».proof.Proof.KStage
import Idealize.ShloMosaic.Lib.ReduceAll
import Idealize.ShloMosaic.Lib.StableHlo.Predicate
import Idealize.ShloMosaic.Lib.ValueIdx

noncomputable section

namespace Cert.KernelIdeal.PreRanges

open Idealize.ShloMosaic Idealize.ShloMosaic.ValueIdx Idealize.SL.Sem Cert.KernelIdeal Cert.KernelIdeal.Stage

/-! ## One word: the two range tests read back -/

/-- A word that tests signed-at-least the word of `-50000` is at least `-50000`. -/
theorem le_of_sge (w : BitVec 32) (h : IntOp.cmpi .sge w 4294917296#32 = 1#1) : (-50000 : Int) ≤ w.toInt := by
  have hc : (4294917296#32 : BitVec 32).toInt = -50000 := by decide
  simp only [IntOp.cmpi, StableHlo.Predicate.ofBool_eq_one_iff, BitVec.sle, decide_eq_true_eq, hc] at h
  exact h

/-- A word that tests signed-below the word of `50000` is below `50000`. -/
theorem lt_of_slt (w : BitVec 32) (h : IntOp.cmpi .slt w 50000#32 = 1#1) : w.toInt < 50000 := by
  have hc : (50000#32 : BitVec 32).toInt = 50000 := by decide
  simp only [IntOp.cmpi, StableHlo.Predicate.ofBool_eq_one_iff, BitVec.slt, decide_eq_true_eq, hc] at h
  exact h

/-- The rank-zero shape has one index. -/
local instance : Subsingleton (⟨0, ![]⟩ : Shape).Idx := ⟨fun a b => funext fun d => d.elim0⟩

variable [Cert.KernelIdeal.Facts]

/-- Under the precondition, on every device: the edges' source nodes and the pairs' two nodes are in `[-50000, 50000)`. -/
theorem ranges_of_pre (m : (ℓ : Loc nD τ sig) → Buf (Elt Ideal) ℓ) (hpre : Cert.Pre_KernelIdeal m) (c : Dev nD) :
    (∀ e : S800000.Idx, (-50000 : Int) ≤ (edgeSrc (m ((c.tc : Thread nD τ).loc main_arg7)) e).toInt
        ∧ (edgeSrc (m ((c.tc : Thread nD τ).loc main_arg7)) e).toInt < 50000)
    ∧ (∀ e : S200000.Idx, (-50000 : Int) ≤ (pairFst (m ((c.tc : Thread nD τ).loc main_arg8)) e).toInt
        ∧ (pairFst (m ((c.tc : Thread nD τ).loc main_arg8)) e).toInt < 50000)
    ∧ (∀ e : S200000.Idx, (-50000 : Int) ≤ (pairSnd (m ((c.tc : Thread nD τ).loc main_arg8)) e).toInt
        ∧ (pairSnd (m ((c.tc : Thread nD τ).loc main_arg8)) e).toInt < 50000) := by
  -- the precondition's one word is a conjunction of thirteen tests, the last six the index ranges
  have h := congrFun (hpre c) ix0
  obtain ⟨h, hSndLt⟩ := IntOp.andi_eq_one.1 h
  obtain ⟨h, hSndGe⟩ := IntOp.andi_eq_one.1 h
  obtain ⟨h, hFstLt⟩ := IntOp.andi_eq_one.1 h
  obtain ⟨h, hFstGe⟩ := IntOp.andi_eq_one.1 h
  obtain ⟨h, hSrcLt⟩ := IntOp.andi_eq_one.1 h
  obtain ⟨h, hSrcGe⟩ := IntOp.andi_eq_one.1 h
  clear h
  -- each is a conjunction over all elements; read it at one element and then as a bound on the word
  refine ⟨fun e => ⟨?_, ?_⟩, fun e => ⟨?_, ?_⟩, fun e => ⟨?_, ?_⟩⟩
  · exact le_of_sge _ (Host.reduce_andi_all _ _ _ _ _ hSrcGe e)
  · exact lt_of_slt _ (Host.reduce_andi_all _ _ _ _ _ hSrcLt e)
  · exact le_of_sge _ (Host.reduce_andi_all _ _ _ _ _ hFstGe e)
  · exact lt_of_slt _ (Host.reduce_andi_all _ _ _ _ _ hFstLt e)
  · exact le_of_sge _ (Host.reduce_andi_all _ _ _ _ _ hSndGe e)
  · exact lt_of_slt _ (Host.reduce_andi_all _ _ _ _ _ hSndLt e)

end Cert.KernelIdeal.PreRanges

end
-- ==== Proof.LayerRef.lean ====
/-
  The reference's dense stages read at an index on the extended reals: a layer `agg · Wl + b + h · Wr` is the same sum
  as `(agg · Wl + h · Wr) + b` (addition of extended reals is commutative and associative), the rectifier is the maximum
  with zero, and the score of a pair is the inner product of its rows (the sum starts from zero).
-/
import proofs.«430444_j27058293965203_1_alg».proof.Proof.RStage
import proofs.«430444_j27058293965203_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LayerRef

open Idealize.ShloMosaic Idealize.ShloMosaic.ValueIdx Cert.ReferenceIdeal Cert.ReferenceIdeal.Stage

variable [Cert.ReferenceIdeal.Facts]

/-! ## The contraction of `[50000, 128] · [128, 128]` at an index

The dimension numbers contract the left operand's axis 1 with the right operand's axis 0 and keep the left's axis 0 and the
right's axis 1. So at output index `(p, q)` and contraction coordinate `k` the left operand is read at `(p, k)` and the
right one at `(k, q)`: four facts, one per operand axis, each stated at the literal axis. -/

/-- Left operand, axis 0 (kept): the output's row. -/
theorem lhs_axis0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl

/-- Left operand, axis 1 (contracted): the contraction coordinate. -/
theorem lhs_axis1 (i : S50000x128.Idx) (c : dot_S50000x128_S128x128_S50000x128_1_0_0_1_n_n.contr.Idx) :
    (dot_S50000x128_S128x128_S50000x128_1_0_0_1_n_n.lhsIdx i c 1).val = (c ⟨0, Nat.one_pos⟩).val :=
  dot_S50000x128_S128x128_S50000x128_1_0_0_1_n_n.lhsIdx_val_of_single rfl i c

/-- Right operand, axis 0 (contracted): the contraction coordinate. -/
theorem rhs_axis0 (i : S50000x128.Idx) (c : dot_S50000x128_S128x128_S50000x128_1_0_0_1_n_n.contr.Idx) :
    (dot_S50000x128_S128x128_S50000x128_1_0_0_1_n_n.rhsIdx i c 0).val = (c ⟨0, Nat.one_pos⟩).val :=
  dot_S50000x128_S128x128_S50000x128_1_0_0_1_n_n.rhsIdx_val_of_single rfl i c

/-- Right operand, axis 1 (kept): the output's column. -/
theorem rhs_axis1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The product of a `[50000, 128]` array with a `[128, 128]` one at `(p, q)`: row `p` of the left times column `q` of the
    right, the sum re-indexed from the one-axis contraction index to its coordinate `k`. -/
theorem dot_apply (l : FVec Ideal S50000x128 .f32) (r : FVec Ideal S128x128 .f32) (p : Fin 50000) (q : Fin 128) :
    Host.dotGeneral (F := Ideal) dot_S50000x128_S128x128_S50000x128_1_0_0_1_n_n none l r (ix2 p q) = ∑ k : Fin 128, l (ix2 p k) * r (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S50000x128_S128x128_S50000x128_1_0_0_1_n_n.rhsIdx (ix2 p q) ((contrEquiv1 dot_S50000x128_S128x128_S50000x128_1_0_0_1_n_n 128 rfl rfl).symm k) = ix2 k q :=
    funext fun a => Fin.ext (by
      match a with
      | ⟨0, _⟩ => exact (rhs_axis0 _ _).trans hk
      | ⟨1, _⟩ => exact rhs_axis1 _ _)
  rw [el, er]

/-- The bias, laid as one row and then down every row of the `[50000, 128]` array, reads at `(p, q)` the bias at `q`:
    the unit axis of the row reads coordinate 0, the other axis keeps `q`. -/
theorem bias_apply (b : FVec Ideal S128 .f32) (p : Fin 50000) (q : Fin 128) :
    broadcastInDim S50000x128 ![0, 1] Facts₀.bcast_S1x128_S50000x128_0_1
        (broadcastInDim S1x128 ![1] Facts₀.bcast_S128_S1x128_1 b) (ix2 p q) = b (ix1 q) := by
  rw [broadcastInDim_apply _ Facts₀.bcast_S1x128_S50000x128_0_1 _ (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])]
  exact broadcastInDim_apply _ Facts₀.bcast_S128_S1x128_1 b (ix2 (0 : Fin 1) q) (ix1 q) (fun a => match a with
    | ⟨0, _⟩ => by show q.val = if (128 : Nat) = 1 then 0 else q.val; rw [if_neg (by decide)])

/-- A layer of the reference is the kernels' layer, for any one-row spelling `b'` of the bias. -/
theorem layer_eq (agg h : FVec Ideal S50000x128 .f32) (wl wr : FVec Ideal S128x128 .f32) (b : FVec Ideal S128 .f32)
    (b' : Cert.Spec.Row.Idx → EReal) (hb : ∀ q : Fin 128, b' (ix2 (0 : Fin 1) q) = b (ix1 q)) :
    layer agg h wl wr b = Cert.Spec.sage agg h wl wr b' := by
  funext i
  obtain ⟨p, q, rfl⟩ : ∃ (p : Fin 50000) (q : Fin 128), i = ix2 p q := ⟨i 0, i 1, eq_ix2 i⟩
  have hbq := hb q
  unfold layer Cert.Spec.sage
  rw [addf_apply, addf_apply, dot_apply, dot_apply, bias_apply, ← hbq]
  -- `(A + B) + C = (A + C) + B` in the commutative monoid of extended reals
  exact add_right_comm _ _ _

/-- The rectifier at an index. -/
theorem relu_apply (x : FVec Ideal S50000x128 .f32) (i : S50000x128.Idx) : relu x i = max (x i) 0 := by
  unfold relu
  -- the scalar zero, laid over the whole array, reads zero everywhere
  rw [maximumf_apply, broadcastInDim_apply _ Facts₀.bcast_S_S50000x128 _ i ix0 (fun a => a.elim0), constant_apply,
    Ideal.ofBits_zero_f32]

/-- The score of pair `e` is the inner product of its two rows. -/
theorem score_apply (zs zd : FVec Ideal S200000x128 .f32) (e : Fin 200000) :
    score zs zd (ix1 e) = Cert.Spec.pairDot zs zd (ix2 e (0 : Fin 1)) := by
  unfold score Cert.Spec.pairDot
  simp only [Host.reduceAdd, Ideal.hostReduceAdd_def]
  -- the sum over axis 1 at `e`: the initial value plus the sum over `d` of the operand at `(e, d)`
  rw [Ideal.hostReduceAdd_single Facts₀.reducesTo_S200000x128_S200000_d1 (by decide), constant_apply, Ideal.ofBits_zero_f32,
    zero_add]
  refine Finset.sum_congr rfl fun d _ => ?_
  rw [mulf_apply]
  have hd : (by decide : Shape.Reduces S200000x128 [1] S200000).lift (ix1 e) d = ix2 e d :=
    funext fun a => Fin.ext (by match a with | ⟨0, _⟩ => rfl | ⟨1, _⟩ => rfl)
  rw [hd]
  -- coordinate 0 of the index `(e, 0)` is `e`
  rfl

end Cert.ReferenceIdeal.LayerRef

end
-- ==== Proof.Bridge.lean ====
/-
  The idealized kernel program's result is the reference's, under the precondition.
  The host stages the two programs share are the same functions (the two files spell the same shape records). Where every
  gather index lies in [-50000, 50000) the kernel program's filled takes are the plain gathers. The first pallas_call's
  output array is then the reference's rectified first layer, the second's the second layer — the kernels add the bias
  last, the reference between the two products: one sum of extended reals — and the third's column, read as a vector,
  is the pairs' inner products, the reference's sum from zero.
-/
import proofs.«430444_j27058293965203_1_alg».proof.Proof.Walk
import proofs.«430444_j27058293965203_1_alg».proof.Proof.RegionSage0
import proofs.«430444_j27058293965203_1_alg».proof.Proof.RegionSage1
import proofs.«430444_j27058293965203_1_alg».proof.Proof.RegionDot
import proofs.«430444_j27058293965203_1_alg».proof.Proof.TakeRows
import proofs.«430444_j27058293965203_1_alg».proof.Proof.PreRanges
import proofs.«430444_j27058293965203_1_alg».proof.Proof.LayerRef
import proofs.«430444_j27058293965203_1_alg».proof.Proof.Gen.ReferenceIdeal
import Idealize.ShloMosaic.Lib.ValueLayout
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Walk

/-! ## The shared host stages are the same functions in the two programs -/

section Shared

variable {F : FTy → Type} [FloatOps F]

theorem edgeSrc_eq (ei : IVec S2x800000 32) : Stage.edgeSrc ei = Cert.ReferenceIdeal.Stage.edgeSrc ei := rfl
theorem edgeDst_eq (ei : IVec S2x800000 32) : Stage.edgeDst ei = Cert.ReferenceIdeal.Stage.edgeDst ei := rfl
theorem pairFst_eq (pe : IVec S2x200000 32) : Stage.pairFst pe = Cert.ReferenceIdeal.Stage.pairFst pe := rfl
theorem pairSnd_eq (pe : IVec S2x200000 32) : Stage.pairSnd pe = Cert.ReferenceIdeal.Stage.pairSnd pe := rfl
theorem rowsE_eq (x : FVec F S50000x128 .f32) (i : IVec S800000 32) :
    Stage.rowsE x i = Cert.ReferenceIdeal.Stage.rowsE x i := rfl
theorem meanInto_eq (msg : FVec F S800000x128 .f32) (dst : IVec S800000 32) :
    Stage.meanInto msg dst = Cert.ReferenceIdeal.Stage.meanInto msg dst := rfl
theorem rowsP_eq (z : FVec F S50000x128 .f32) (i : IVec S200000 32) :
    Stage.rowsP z i = Cert.ReferenceIdeal.Stage.rowsP z i := rfl

end Shared

/-! ## The two reshapes at an index -/

/-- A bias as one row, at column `q`. -/
theorem biasRow_apply (b : FVec Ideal S128 .f32) (q : Fin 128) :
    (shapeCast S1x128 b shapeCasts_S128_S1x128 : Cert.Spec.Row.Idx → EReal) (ix2 (0 : Fin 1) q) = b (ix1 q) :=
  shapeCast_a_1a_apply b _ 0 q

/-- A column as a vector, at entry `e`. -/
theorem colVec_apply (x : FVec Ideal S200000x1 .f32) (e : Fin 200000) :
    shapeCast S200000 x shapeCasts_S200000x1_S200000 (ix1 e) = x (ix2 e (0 : Fin 1)) :=
  shapeCast_apply x _ _ _ (by
    rw [Shape.rowMajor_val_two, Shape.rowMajor_val_one]
    show e.val * 1 + 0 = e.val
    omega)

/-! ## The chain -/

section Chain

variable (m : (ℓ : Loc nD τ sig) → Buf (Elt Ideal) ℓ) (ρ : Dev nD → PrngReg)

/-- The reference's first aggregate, rectified first layer, second aggregate and second layer, of the launch contents. -/
abbrev agg1R (c : Dev nD) : FVec Ideal S50000x128 .f32 :=
  Cert.ReferenceIdeal.Stage.meanInto (Cert.ReferenceIdeal.Stage.rowsE (feat m c) (Cert.ReferenceIdeal.Stage.edgeSrc (edges m c)))
    (Cert.ReferenceIdeal.Stage.edgeDst (edges m c))
abbrev hidR (c : Dev nD) : FVec Ideal S50000x128 .f32 :=
  Cert.ReferenceIdeal.Stage.relu (Cert.ReferenceIdeal.Stage.layer (agg1R m c) (feat m c) (w1l m c) (w1r m c) (b1 m c))
abbrev agg2R (c : Dev nD) : FVec Ideal S50000x128 .f32 :=
  Cert.ReferenceIdeal.Stage.meanInto (Cert.ReferenceIdeal.Stage.rowsE (hidR m c) (Cert.ReferenceIdeal.Stage.edgeSrc (edges m c)))
    (Cert.ReferenceIdeal.Stage.edgeDst (edges m c))
abbrev embR (c : Dev nD) : FVec Ideal S50000x128 .f32 :=
  Cert.ReferenceIdeal.Stage.layer (agg2R m c) (hidR m c) (w2l m c) (w2r m c) (b2 m c)

/-- The first pallas_call leaves the reference's rectified first layer. -/
theorem out0_eq (c : Dev nD)
    (hsrc : ∀ e : S800000.Idx, (-50000 : Int) ≤ (Stage.edgeSrc (edges m c) e).toInt ∧ (Stage.edgeSrc (edges m c) e).toInt < 50000) :
    out0 m ρ c = hidR m c := by
  show (dat0 (F := Ideal) (V3 m ρ) c).arrAt 5 cfg0.N = _
  rw [RegionSage0.final0]
  dsimp only [V3]
  rw [W3_v16, W3_arg0, W3_arg1, W3_arg3, W3_v17, TakeRows.rowsOrNanE_eq _ _ hsrc, rowsE_eq, meanInto_eq, edgeSrc_eq, edgeDst_eq]
  funext i
  show Cert.Spec.sageRelu _ _ _ _ _ i
    = Cert.ReferenceIdeal.Stage.relu (Cert.ReferenceIdeal.Stage.layer (agg1R m c) (feat m c) (w1l m c) (w1r m c) (b1 m c)) i
  rw [Cert.ReferenceIdeal.LayerRef.relu_apply, Cert.ReferenceIdeal.LayerRef.layer_eq _ _ _ _ _ _ (biasRow_apply (b1 m c))]
  rfl

/-- The second pallas_call leaves the reference's second layer. -/
theorem out1_eq (c : Dev nD)
    (hsrc : ∀ e : S800000.Idx, (-50000 : Int) ≤ (Stage.edgeSrc (edges m c) e).toInt ∧ (Stage.edgeSrc (edges m c) e).toInt < 50000) :
    out1 m ρ c = embR m c := by
  show (dat1 (F := Ideal) (V6 m ρ) c).arrAt 5 cfg1.N = _
  rw [RegionSage1.final1]
  dsimp only [V6]
  rw [W6_v30, W6_v18, W6_arg4, W6_arg6, W6_v31, out0_eq m ρ c hsrc, TakeRows.rowsOrNanE_eq _ _ hsrc, rowsE_eq, meanInto_eq,
    edgeSrc_eq, edgeDst_eq]
  exact (Cert.ReferenceIdeal.LayerRef.layer_eq _ _ _ _ _ _ (biasRow_apply (b2 m c))).symm

/-- THE RESULT: the kernel program's result buffer at the last boundary holds the reference's staged result. -/
theorem value_eq (c : Dev nD)
    (hsrc : ∀ e : S800000.Idx, (-50000 : Int) ≤ (Stage.edgeSrc (edges m c) e).toInt ∧ (Stage.edgeSrc (edges m c) e).toInt < 50000)
    (hps : ∀ e : S200000.Idx, (-50000 : Int) ≤ (Stage.pairFst (pairs m c) e).toInt ∧ (Stage.pairFst (pairs m c) e).toInt < 50000)
    (hpd : ∀ e : S200000.Idx, (-50000 : Int) ≤ (Stage.pairSnd (pairs m c) e).toInt ∧ (Stage.pairSnd (pairs m c) e).toInt < 50000) :
    W12 m ρ c (Proc.devRef .tc main_v40)
      = Cert.ReferenceIdeal.Stage.result (F := Ideal) (feat m c) (w1l m c) (b1 m c) (w1r m c) (w2l m c) (b2 m c) (w2r m c) (edges m c) (pairs m c) := by
  rw [W12_v40]
  show _ = Cert.ReferenceIdeal.Stage.score (F := Ideal)
    (Cert.ReferenceIdeal.Stage.rowsP (embR m c) (Cert.ReferenceIdeal.Stage.pairFst (pairs m c)))
    (Cert.ReferenceIdeal.Stage.rowsP (embR m c) (Cert.ReferenceIdeal.Stage.pairSnd (pairs m c)))
  funext j
  obtain ⟨e, rfl⟩ : ∃ e : Fin 200000, j = ix1 e := ⟨j 0, eq_ix1 j⟩
  rw [colVec_apply, Cert.ReferenceIdeal.LayerRef.score_apply]
  show (dat2 (F := Ideal) (V10 m ρ) c).arrAt 2 cfg2.N (ix2 e (0 : Fin 1)) = _
  rw [RegionDot.final2]
  dsimp only [V10]
  rw [W10_v37, W10_v38, out1_eq m ρ c hsrc, TakeRows.rowsOrNanP_eq _ _ hps, TakeRows.rowsOrNanP_eq _ _ hpd, rowsP_eq, rowsP_eq,
    pairFst_eq, pairSnd_eq]

/-- Under the precondition, which puts the three index vectors in range. -/
theorem kernel_value (hpre : Cert.Pre_KernelIdeal m) (c : Dev nD) :
    W12 m ρ c (Proc.devRef .tc main_v40)
      = Cert.ReferenceIdeal.Stage.result (F := Ideal) (feat m c) (w1l m c) (b1 m c) (w1r m c) (w2l m c) (b2 m c) (w2r m c) (edges m c) (pairs m c) := by
  obtain ⟨hsrc, hps, hpd⟩ := PreRanges.ranges_of_pre m hpre c
  exact value_eq m ρ c hsrc hps hpd

end Chain

end Cert.Bridge

end
-- ==== Proof.lean ====
/-
  Two SAGE-convolution layers and an edge scorer: the Pallas program against its jnp reference, over the extended reals.

  Both programs gather each edge's source row, average the rows arriving at every node (a scatter-add divided by the
  in-degree, at least one), and apply `agg · Wl + h · Wr + b`, rectified after the first layer; then they gather the two
  rows of each of 200000 node pairs and take their inner product. The kernel program does the two dense layers and the
  inner products in three pallas_calls (row blocks of 5000; two bf16 matrix products into zero accumulators, the bias
  added last; an elementwise product and a lane sum), and gathers with `jnp.take`, which fills a row with the
  not-a-number pattern when its index names none of the 50000 rows; the reference indexes plainly, and its gather clamps.
  On an index outside [-50000, 50000) the two differ, so the statement carries that range for the three gather index
  vectors (the reference itself indexes out of range outside it); inside it the fill is never taken, and the rest is
  reading both sides at an index: a change of float format is the identity on the extended reals, a matrix product into
  a zero accumulator is the sum the reference's `dot_general` is, and `(a + c) + b = (a + b) + c` there.

  The three frames: the two kernel programs' are the generated frame certificates; the reference's is its generated run
  with the result dropped. The idealization rewrote nothing, so `preserves` is trivial. `algebraic`: the kernel
  program's run with its result buffer named (the launch theorem called once more over the generated segments), that
  buffer's contents walked back through the host stretches and the three regions' closed forms to the reference's
  staged result, and the reference's generated run, whose composed term is that staged result.
-/
import proofs.«430444_j27058293965203_1_alg».proof.Defs
import proofs.«430444_j27058293965203_1_alg».proof.Proof.Gen.Kernel
import proofs.«430444_j27058293965203_1_alg».proof.Proof.Gen.Kernel.Frame
import proofs.«430444_j27058293965203_1_alg».proof.Proof.Gen.KernelIdeal
import proofs.«430444_j27058293965203_1_alg».proof.Proof.Gen.KernelIdeal.Frame
import proofs.«430444_j27058293965203_1_alg».proof.Proof.Gen.ReferenceIdeal
import proofs.«430444_j27058293965203_1_alg».proof.Proof.Gen.ReferenceIdeal.Run
import proofs.«430444_j27058293965203_1_alg».proof.Proof.Gen.Pre_finite_inputs
import proofs.«430444_j27058293965203_1_alg».proof.Proof.KernelRun
import proofs.«430444_j27058293965203_1_alg».proof.Proof.RRun
import proofs.«430444_j27058293965203_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame certificate. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, under the precondition, both programs end with the reference's staged
    result of the kernel program's launch contents. -/
theorem algebraic : Cert.algebraic_KernelIdeal_ReferenceIdeal := by
  intro m ρ m' ρ' hpre hagree
  refine ⟨fun c => Cert.ReferenceIdeal.Stage.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Bridge.kernel_value m ρ hpre c), (h c).2⟩)
      (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    refine (Cert.ReferenceIdeal.RunStaged.res_eq m' c).trans ?_
    rw [h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
